-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S_ : Shape := ⟨0, ![]⟩

class Facts : Prop where
  bcast_S_S32x8192x3 : S_.BroadcastsInDim S32x8192x3 (![] : Fin 0 → Fin S32x8192x3.rank)
  reducesTo_S32x8192x3_S_d0_1_2 : S32x8192x3.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S32x256 : S_.BroadcastsInDim S32x256 (![] : Fin 0 → Fin S32x256.rank)
  reducesTo_S32x256_S_d0_1 : S32x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x24576 : S_.BroadcastsInDim S1024x24576 (![] : Fin 0 → Fin S1024x24576.rank)
  reducesTo_S1024x24576_S_d0_1 : S1024x24576.ReducesTo [0, 1] S_
  bcast_S_S24576 : S_.BroadcastsInDim S24576 (![] : Fin 0 → Fin S24576.rank)
  reducesTo_S24576_S_d0 : S24576.ReducesTo [0] S_

variable [Facts]

def fn_part1 {F : FTy → Type} [FloatOps F] (main_arg6 : FVec F S1024 .f32) (main_arg7 : FVec F S1024x24576 .f32) (main_arg8 : FVec F S24576 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x24576 .f32 := Host.absf main_arg7
  let main_cst_8 : FVec F S_ .f32 := constant S_ .f32 0x7F800000#32
  let main_v25 : FVec F S1024x24576 .f32 := broadcastInDim S1024x24576 ![] bcast_S_S1024x24576 main_cst_8
  let main_v26 : IVec S1024x24576 1 := cmpf .olt main_v24 main_v25
  let main_c_9 : IVec S_ 1 := constantI S_ 1 1#1
  let main_v27 : IVec S_ 1 := (fun x v => Host.reduce IntOp.andi x v reducesTo_S1024x24576_S_d0_1 h_S_) main_v26 main_c_9
  let main_v28 : IVec S_ 1 := andi main_v23 main_v27
  let main_v29 : FVec F S24576 .f32 := Host.absf main_arg8
  let main_cst_10 : FVec F S_ .f32 := constant S_ .f32 0x7F800000#32
  let main_v30 : FVec F S24576 .f32 := broadcastInDim S24576 ![] bcast_S_S24576 main_cst_10
  let main_v31 : IVec S24576 1 := cmpf .olt main_v29 main_v30
  let main_c_11 : IVec S_ 1 := constantI S_ 1 1#1
  let main_v32 : IVec S_ 1 := (fun x v => Host.reduce IntOp.andi x v reducesTo_S24576_S_d0 h_S_) main_v31 main_c_11
  let main_v33 : IVec S_ 1 := andi main_v28 main_v32
  main_v33

def fn {F : FTy → Type} [FloatOps F] (main_arg0 : FVec F S32x8192x3 .f32) (main_arg1 : IVec S8192x16 32) (main_arg2 : IVec S8192 32) (main_arg3 : FVec F S8192x16 .f32) (main_arg4 : FVec F S32x256 .f32) (main_arg5 : FVec F S256x1024 .f32) (main_arg6 : FVec F S1024 .f32) (main_arg7 : FVec F S1024x24576 .f32) (main_arg8 : FVec F S24576 .f32) : IVec S_ 1 :=
  let main_v0 : FVec F S32x8192x3 .f32 := Host.absf main_arg0
  let main_cst : FVec F S_ .f32 := constant S_ .f32 0x7F800000#32
  let main_v1 : FVec F S32x8192x3 .f32 := broadcastInDim S32x8192x3 ![] bcast_S_S32x8192x3 main_cst
  let main_v2 : IVec S32x8192x3 1 := cmpf .olt main_v0 main_v1
  let main_c : IVec S_ 1 := constantI S_ 1 1#1
  let main_v3 : IVec S_ 1 := (fun x v => Host.reduce IntOp.andi x v reducesTo_S32x8192x3_S_d0_1_2 h_S_) main_v2 main_c
  let main_v4 : FVec F S8192x16 .f32 := Host.absf main_arg3
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S32x256 .f32 := Host.absf main_arg4
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_v13 main_v16
-- ==== Kernel.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S1x1024 : Shape := ⟨2, ![1, 1024]⟩
abbrev S32x1024 : Shape := ⟨2, ![32, 1024]⟩
abbrev S1x24576 : Shape := ⟨2, ![1, 24576]⟩
abbrev S32x24576 : Shape := ⟨2, ![32, 24576]⟩
abbrev S1024x2048 : Shape := ⟨2, ![1024, 2048]⟩
abbrev S1x2048 : Shape := ⟨2, ![1, 2048]⟩
abbrev S32x2048 : Shape := ⟨2, ![32, 2048]⟩
abbrev S_ : Shape := ⟨0, ![]⟩
abbrev S8192x16x1 : Shape := ⟨3, ![8192, 16, 1]⟩
abbrev S32x8192x16x3 : Shape := ⟨4, ![32, 8192, 16, 3]⟩
abbrev S32x8192x1x3 : Shape := ⟨4, ![32, 8192, 1, 3]⟩
abbrev S1x8192x16 : Shape := ⟨3, ![1, 8192, 16]⟩
abbrev S32x8192x16 : Shape := ⟨3, ![32, 8192, 16]⟩
abbrev S16 : Shape := ⟨1, ![16]⟩
abbrev S1x16 : Shape := ⟨2, ![1, 16]⟩
abbrev S8192x1 : Shape := ⟨2, ![8192, 1]⟩
abbrev S32x8192 : Shape := ⟨2, ![32, 8192]⟩
abbrev S32 : Shape := ⟨1, ![32]⟩

abbrev nBuf : Space → Nat
  | .hbm => 103
  | .vmem => 20
  | .smem => 0
  | _ => 0

abbrev bufTy : (tb : Table) → Fin (tcTables nBuf tb) → BufTy
  | .hbm, ⟨0, _⟩ => ⟨S32x8192x3, .f32⟩
  | .hbm, ⟨1, _⟩ => ⟨S8192x16, .i32⟩
  | .hbm, ⟨2, _⟩ => ⟨S8192, .i32⟩
  | .hbm, ⟨3, _⟩ => ⟨S8192x16, .f32⟩
  | .hbm, ⟨4, _⟩ => ⟨S32x256, .f32⟩
  | .hbm, ⟨5, _⟩ => ⟨S256x1024, .f32⟩
  | .hbm, ⟨6, _⟩ => ⟨S1024, .f32⟩
  | .hbm, ⟨7, _⟩ => ⟨S1024x24576, .f32⟩
  | .hbm, ⟨8, _⟩ => ⟨S24576, .f32⟩
  | .hbm, ⟨9, _⟩ => ⟨S1x1024, .f32⟩
  | .hbm, ⟨10, _⟩ => ⟨S32x1024, .f32⟩
  | .hbm, ⟨11, _⟩ => ⟨S1x24576, .f32⟩
  | .hbm, ⟨12, _⟩ => ⟨S32x24576, .f32⟩
  | .hbm, ⟨13, _⟩ => ⟨S32x8192x3, .f32⟩
  | .hbm, ⟨14, _⟩ => ⟨S_, .i32⟩
  | .hbm, ⟨15, _⟩ => ⟨S8192x16, .i32⟩
  | .hbm, ⟨16, _⟩ => ⟨S8192x16, .i1⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S8192x16, .i32⟩
  | .hbm, ⟨21, _⟩ => ⟨S8192x16x1, .i32⟩
  | .hbm, ⟨22, _⟩ => ⟨S32x8192x16x3, .f32⟩
  | .hbm, ⟨23, _⟩ => ⟨S_, .i32⟩
  | .hbm, ⟨24, _⟩ => ⟨S8192x16, .i32⟩
  | .hbm, ⟨25, _⟩ => ⟨S8192x16, .i1⟩
  | .hbm, ⟨26, _⟩ => ⟨S_, .i32⟩
  | .hbm, ⟨27, _⟩ => ⟨S8192x16, .i32⟩
  | .hbm, ⟨28, _⟩ => ⟨S8192x16, .i32⟩
  | .hbm, ⟨29, _⟩ => ⟨S8192x16, .i32⟩
  | .hbm, ⟨30, _⟩ => ⟨S8192x16x1, .i32⟩
  | .hbm, ⟨31, _⟩ => ⟨S32x8192x16x3, .f32⟩
  | .hbm, ⟨32, _⟩ => ⟨S32x8192x1x3, .f32⟩
  | .hbm, ⟨33, _⟩ => ⟨S32x8192x16x3, .f32⟩
  | .hbm, ⟨34, _⟩ => ⟨S32x8192x16x3, .f32⟩
  | .hbm, ⟨35, _⟩ => ⟨S32x8192x1x3, .f32⟩
  | .hbm, ⟨36, _⟩ => ⟨S32x8192x16x3, .f32⟩
  | .hbm, ⟨37, _⟩ => ⟨S32x8192x16x3, .f32⟩
  | .hbm, ⟨38, _⟩ => ⟨S32x8192x16x3, .f32⟩
  | .hbm, ⟨39, _⟩ => ⟨S1x8192x16, .f32⟩
  | .hbm, ⟨40, _⟩ => ⟨S_, .f32⟩
  | .hbm, ⟨41, _⟩ => ⟨S1x8192x16, .f32⟩
  | .hbm, ⟨42, _⟩ => ⟨S1x8192x16, .f32⟩
  | .hbm, ⟨43, _⟩ => ⟨S32x8192x16x3, .f32⟩
  | .hbm, ⟨44, _⟩ => ⟨S_, .f32⟩
  | .hbm, ⟨45, _⟩ => ⟨S32x8192x16, .f32⟩
  | .hbm, ⟨46, _⟩ => ⟨S32x8192x16, .f32⟩
  | .hbm, ⟨47, _⟩ => ⟨S32x8192x16, .f32⟩
  | .hbm, ⟨48, _⟩ => ⟨S16, .i32⟩
  | .hbm, ⟨49, _⟩ => ⟨S1x16, .i32⟩
  | .hbm, ⟨50, _⟩ => ⟨S8192x1, .i32⟩
  | .hbm, ⟨51, _⟩ => ⟨S8192x16, .i32⟩
  | .hbm, ⟨52, _⟩ => ⟨S8192x16, .i32⟩
  | .hbm, ⟨53, _⟩ => ⟨S8192x16, .i1⟩
  | .hbm, ⟨54, _⟩ => ⟨S1x8192x16, .i1⟩
  | .hbm, ⟨55, _⟩ => ⟨S_, .f32⟩
  | .hbm, ⟨56, _⟩ => ⟨S32x8192x16, .i1⟩
  | .hbm, ⟨57, _⟩ => ⟨S32x8192x16, .f32⟩
  | .hbm, ⟨58, _⟩ => ⟨S32x8192x16, .f32⟩
  | .hbm, ⟨59, _⟩ => ⟨S_, .f32⟩
  | .hbm, ⟨60, _⟩ => ⟨S32x8192x16, .f32⟩
  | .hbm, ⟨61, _⟩ => ⟨S_, .f32⟩
  | .hbm, ⟨62, _⟩ => ⟨S32x8192, .f32⟩
  | .hbm, ⟨63, _⟩ => ⟨S_, .f32⟩
  | .hbm, ⟨64, _⟩ => ⟨S32x8192, .f32⟩
  | .hbm, ⟨65, _⟩ => ⟨S32x8192, .f32⟩
  | .hbm, ⟨66, _⟩ => ⟨S_, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32x8192, .f32⟩
  | .hbm, ⟨77, _⟩ => ⟨S_, .f32⟩
  | .hbm, ⟨78, _⟩ => ⟨S32x8192, .f32⟩
  | .hbm, ⟨79, _⟩ => ⟨S32x8192, .f32⟩
  | .hbm, ⟨80, _⟩ => ⟨S32x8192x16, .f32⟩
  | .hbm, ⟨81, _⟩ => ⟨S_, .f32⟩
  | .hbm, ⟨82, _⟩ => ⟨S32x8192x16, .f32⟩
  | .hbm, ⟨83, _⟩ => ⟨S32x8192x16, .f32⟩
  | .hbm, ⟨84, _⟩ => ⟨S32x8192x16, .f32⟩
  | .hbm, ⟨85, _⟩ => ⟨S32x8192x16, .f32⟩
  | .hbm, ⟨86, _⟩ => ⟨S32x8192x16x3, .f32⟩
  | .hbm, ⟨87, _⟩ => ⟨S32x8192x16x3, .f32⟩
  | .hbm, ⟨88, _⟩ => ⟨S32x8192x16x3, .f32⟩
  | .hbm, ⟨89, _⟩ => ⟨S32x8192x16x3, .f32⟩
  | .hbm, ⟨90, _⟩ => ⟨S_, .f32⟩
  | .hbm, ⟨91, _⟩ => ⟨S32x8192x3, .f32⟩
  | .hbm, ⟨92, _⟩ => ⟨S32x8192x1x3, .f32⟩
  | .hbm, ⟨93, _⟩ => ⟨S32x8192x16x3, .f32⟩
  | .hbm, ⟨94, _⟩ => ⟨S_, .f32⟩
  | .hbm, ⟨95, _⟩ => ⟨S32x8192x3, .f32⟩
  | .hbm, ⟨96, _⟩ => ⟨S_, .f32⟩
  | .hbm, ⟨97, _⟩ => ⟨S32x8192x3, .f32⟩
  | .hbm, ⟨98, _⟩ => ⟨S32x8192x3, .f32⟩
  | .hbm, ⟨99, _⟩ => ⟨S32x8192x3, .f32⟩
  | .hbm, ⟨100, _⟩ => ⟨S32x24576, .f32⟩
  | .hbm, ⟨101, _⟩ => ⟨S32x1024, .f32⟩
  | .hbm, ⟨102, _⟩ => ⟨S32x256, .f32⟩
  | .local _ .vmem, ⟨0, _⟩ => ⟨S32x256, .f32⟩
  | .local _ .vmem, ⟨1, _⟩ => ⟨S256x1024, .f32⟩
  | .local _ .vmem, ⟨2, _⟩ => ⟨S1x1024, .f32⟩
  | .local _ .vmem, ⟨3, _⟩ => ⟨S32x1024, .f32⟩
  | .local _ .vmem, ⟨4, _⟩ => ⟨S32x1024, .f32⟩
  | .local _ .vmem, ⟨5, _⟩ => ⟨S1024x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S1024x2048, .f32⟩
  | .local _ .vmem, ⟨14, _⟩ => ⟨S1024x2048, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S256x1024, .f32⟩
  | .local _ .vmem, ⟨19, _⟩ => ⟨S32x256, .f32⟩
  | _, _ => ⟨S32x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40_1 : Ref sig .tc := ⟨.hbm, 56, rfl⟩
abbrev main_call0_v1 : Ref sig .tc := ⟨.hbm, 57, rfl⟩
abbrev main_v40_0 : Ref sig .tc := ⟨.hbm, 58, rfl⟩
abbrev main_call0_cst : Ref sig .tc := ⟨.hbm, 59, rfl⟩
abbrev main_v40_2 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  shapeCasts_S1024_S1x1024 : S1024.ShapeCasts S1x1024
  inb_S32x256_S32x256_0_0 : ∀ a, (![0, 0] : Fin 2 → Nat) a + S32x256.size a ≤ S32x256.size a
  h_S32x256 : 0 < S32x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S32x1024_S32x1024_0_0 : ∀ a, (![0, 0] : Fin 2 → Nat) a + S32x1024.size a ≤ S32x1024.size a
  h_S32x1024 : 0 < S32x1024.numel
  shapeCasts_S24576_S1x24576 : S24576.ShapeCasts S1x24576
  shapeCasts_S32x1024_S32x1024 : S32x1024.ShapeCasts S32x1024
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S32x2048_S32x2048_0_0 : ∀ a, (![0, 0] : Fin 2 → Nat) a + S32x2048.size a ≤ S32x2048.size a
  h_S32x2048 : 0 < S32x2048.numel
  shapeCasts_S32x24576_S32x8192x3 : S32x24576.ShapeCasts S32x8192x3
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S32x8192x3_S32x8192x1x3_0_1_3 : S32x8192x3.BroadcastsInDim S32x8192x1x3 (![0, 1, 3] : Fin 3 → Fin S32x8192x1x3.rank)
  bcast_S32x8192x1x3_S32x8192x16x3_0_1_2_3 : S32x8192x1x3.BroadcastsInDim S32x8192x16x3 (![0, 1, 2, 3] : Fin 4 → Fin S32x8192x16x3.rank)
  bcast_S8192x16_S1x8192x16_1_2 : S8192x16.BroadcastsInDim S1x8192x16 (![1, 2] : Fin 2 → Fin S1x8192x16.rank)
  bcast_S_S1x8192x16 : S_.BroadcastsInDim S1x8192x16 (![] : Fin 0 → Fin S1x8192x16.rank)
  reducesTo_S32x8192x16x3_S32x8192x16_d3 : S32x8192x16x3.ReducesTo [3] S32x8192x16
  h_S_ : 0 < S_.numel
  bcast_S1x8192x16_S32x8192x16_0_1_2 : S1x8192x16.BroadcastsInDim S32x8192x16 (![0, 1, 2] : Fin 3 → Fin S32x8192x16.rank)
  bcast_S16_S1x16_1 : S16.BroadcastsInDim S1x16 (![1] : Fin 1 → Fin S1x16.rank)
  bcast_S8192_S8192x1_0 : S8192.BroadcastsInDim S8192x1 (![0] : Fin 1 → Fin S8192x1.rank)
  bcast_S1x16_S8192x16_0_1 : S1x16.BroadcastsInDim S8192x16 (![0, 1] : Fin 2 → Fin S8192x16.rank)
  bcast_S8192x1_S8192x16_0_1 : S8192x1.BroadcastsInDim S8192x16 (![0, 1] : Fin 2 → Fin S8192x16.rank)
  bcast_S_S32x8192x16 : S_.BroadcastsInDim S32x8192x16 (![] : Fin 0 → Fin S32x8192x16.rank)
  reducesTo_S32x8192x16_S32x8192_d2 : S32x8192x16.ReducesTo [2] S32x8192
  bcast_S_S32x8192 : S_.BroadcastsInDim S32x8192 (![] : Fin 0 → Fin S32x8192.rank)
  reducesTo_S32x8192_S32_d1 : S32x8192.ReducesTo [1] S32
  bcast_S_S32 : S_.BroadcastsInDim S32 (![] : Fin 0 → Fin S32.rank)
  bcast_S32_S32x8192_0 : S32.BroadcastsInDim S32x8192 (![0] : Fin 1 → Fin S32x8192.rank)
  bcast_S32x8192_S32x8192x16_0_1 : S32x8192.BroadcastsInDim S32x8192x16 (![0, 1] : Fin 2 → Fin S32x8192x16.rank)
  bcast_S32x8192x16_S32x8192x16x3_0_1_2 : S32x8192x16.BroadcastsInDim S32x8192x16x3 (![0, 1, 2] : Fin 3 → Fin S32x8192x16x3.rank)
  reducesTo_S32x8192x16x3_S32x8192x3_d2 : S32x8192x16x3.ReducesTo [2] S32x8192x3
  shapeCasts_S32x8192x3_S32x8192x1x3 : S32x8192x3.ShapeCasts S32x8192x1x3
  reducesTo_S32x8192x1x3_S32x8192x3_d2 : S32x8192x1x3.ReducesTo [2] S32x8192x3
  bcast_S_S32x8192x3 : S_.BroadcastsInDim S32x8192x3 (![] : Fin 0 → Fin S32x8192x3.rank)
  shapeCasts_S32x8192x3_S32x24576 : S32x8192x3.ShapeCasts S32x24576
  shapeCasts_S32x2048_S32x2048 : S32x2048.ShapeCasts S32x2048
  natLt_1_32 : 1 < 32
  dot_S32x256_S256x1024_S32x1024_1_0_0_1_n_n_wf : DotDims.WF S32x256 S256x1024 S32x1024 [1] [0] [0] [1] [] []
  dot_S32x1024_S1024x2048_S32x2048_1_0_0_1_n_n_wf : DotDims.WF S32x1024 S1024x2048 S32x2048 [1] [0] [0] [1] [] []
  gather_S32x8192x3_S8192x16x1_S32x8192x16x3_03_1_n_n_1_2_3213_wf : GatherDims.WF S32x8192x3 S8192x16x1 S32x8192x16x3 [0, 3] [1] [] [1] [] 2 ![32, 1, 3]
  scatter_S32x8192x3_S8192x16x1_S32x8192x16x3_03_1_1_2_wf : ScatterDims.WF S32x8192x3 S8192x16x1 S32x8192x16x3 [0, 3] [1] [1] 2
  dot_S32x2048_S1024x2048_S32x1024_1_1_0_0_n_n_wf : DotDims.WF S32x2048 S1024x2048 S32x1024 [1] [1] [0] [0] [] []
  dot_S32x1024_S256x1024_S32x256_1_1_0_0_n_n_wf : DotDims.WF S32x1024 S256x1024 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x24576.size a
  hwx1_1 : ∀ i : grid1.Coords, EltTy.bits .f32 = 32 ∨ (Rect.block (s := S1024x24576) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x24576.size a
  hwx1_2 : ∀ i : grid1.Coords, EltTy.bits .f32 = 32 ∨ (Rect.block (s := S1x24576) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x2048.size a ≤ S32x24576.size a
  hwx1_3 : ∀ i : grid1.Coords, EltTy.bits .f32 = 32 ∨ (Rect.block (s := S32x24576) S32x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x2048.size a ≤ S32x24576.size a
  hwx2_0 : ∀ i : grid2.Coords, EltTy.bits .f32 = 32 ∨ (Rect.block (s := S32x24576) S32x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x24576.size a
  hwx2_1 : ∀ i : grid2.Coords, EltTy.bits .f32 = 32 ∨ (Rect.block (s := S1024x24576) S1024x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1024.size a ≤ S32x1024.size a
  hwx2_2 : ∀ i : grid2.Coords, EltTy.bits .f32 = 32 ∨ (Rect.block (s := S32x1024) S32x1024.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S32x1024.size a ≤ S32x1024.size a
  hwx3_0 : ∀ i : grid3.Coords, EltTy.bits .f32 = 32 ∨ (Rect.block (s := S32x1024) S32x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1024.size a ≤ S32x1024.size a
  hwx3_1 : ∀ i : grid3.Coords, EltTy.bits .f32 = 32 ∨ (Rect.block (s := S32x1024) S32x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .f32 = 32 ∨ (Rect.block (s := S256x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x256.size a ≤ S32x256.size a
  hwx3_3 : ∀ i : grid3.Coords, EltTy.bits .f32 = 32 ∨ (Rect.block (s := S32x256) S32x256.size (cc3_transform_3 i) (hinb3_3 i)).WholeWords (EltTy.packing .f32)

variable [Facts₀]

def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def gather_S32x8192x3_S8192x16x1_S32x8192x16x3_03_1_n_n_1_2_3213 : GatherDims S32x8192x3 S8192x16x1 S32x8192x16x3 where
  offsetDims := [0, 3]
  collapsedSliceDims := [1]
  operandBatchingDims := []
  startIndicesBatchingDims := []
  startIndexMap := [1]
  indexVectorDim := 2
  sliceSizes := ![32, 1, 3]
  wf := gather_S32x8192x3_S8192x16x1_S32x8192x16x3_03_1_n_n_1_2_3213_wf
def scatter_S32x8192x3_S8192x16x1_S32x8192x16x3_03_1_1_2 : ScatterDims S32x8192x3 S8192x16x1 S32x8192x16x3 where
  updateWindowDims := [0, 3]
  insertedWindowDims := [1]
  scatterDimsToOperandDims := [1]
  indexVectorDim := 2
  wf := scatter_S32x8192x3_S8192x16x1_S32x8192x16x3_03_1_1_2_wf
def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf
def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf

abbrev win0_0 : Pipeline.Window sig grid0 :=
  Pipeline.Window.ofSpec (Memref.whole main_arg4) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S32x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S32x1024.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S32x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v1) S32x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S32x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S32x1024 : Shape := ⟨2, ![32, 1024]⟩
abbrev S1x1024 : Shape := ⟨2, ![1, 1024]⟩
abbrev S_ : Shape := ⟨0, ![]⟩
abbrev S32x24576 : Shape := ⟨2, ![32, 24576]⟩
abbrev S1x24576 : Shape := ⟨2, ![1, 24576]⟩
abbrev S8192x16x1 : Shape := ⟨3, ![8192, 16, 1]⟩
abbrev S32x8192x16x3 : Shape := ⟨4, ![32, 8192, 16, 3]⟩
abbrev S32x8192x1x3 : Shape := ⟨4, ![32, 8192, 1, 3]⟩
abbrev S1x8192x16 : Shape := ⟨3, ![1, 8192, 16]⟩
abbrev S32x8192x16 : Shape := ⟨3, ![32, 8192, 16]⟩
abbrev S16 : Shape := ⟨1, ![16]⟩
abbrev S8192x1 : Shape := ⟨2, ![8192, 1]⟩
abbrev S1x16 : Shape := ⟨2, ![1, 16]⟩
abbrev S32x8192 : Shape := ⟨2, ![32, 8192]⟩
abbrev S32 : Shape := ⟨1, ![32]⟩

abbrev nBuf : Space → Nat
  | .hbm => 118
  | .vmem => 0
  | .smem => 0
  | _ => 0

abbrev bufTy : (tb : Table) → Fin (tcTables nBuf tb) → BufTy
  | .hbm, ⟨0, _⟩ => ⟨S32x8192x3, .f32⟩
  | .hbm, ⟨1, _⟩ => ⟨S8192x16, .i32⟩
  | .hbm, ⟨2, _⟩ => ⟨S8192, .i32⟩
  | .hbm, ⟨3, _⟩ => ⟨S8192x16, .f32⟩
  | .hbm, ⟨4, _⟩ => ⟨S32x256, .f32⟩
  | .hbm, ⟨5, _⟩ => ⟨S256x1024, .f32⟩
  | .hbm, ⟨6, _⟩ => ⟨S1024, .f32⟩
  | .hbm, ⟨7, _⟩ => ⟨S1024x24576, .f32⟩
  | .hbm, ⟨8, _⟩ => ⟨S24576, .f32⟩
  | .hbm, ⟨9, _⟩ => ⟨S32x1024, .f32⟩
  | .hbm, ⟨10, _⟩ => ⟨S1x1024, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S_, .f32⟩
  | .hbm, ⟨17, _⟩ => ⟨S32x1024, .f32⟩
  | .hbm, ⟨18, _⟩ => ⟨S32x1024, .i1⟩
  | .hbm, ⟨19, _⟩ => ⟨S_, .f32⟩
  | .hbm, ⟨20, _⟩ => ⟨S32x1024, .f32⟩
  | .hbm, ⟨21, _⟩ => ⟨S32x24576, .f32⟩
  | .hbm, ⟨22, _⟩ => ⟨S1x24576, .f32⟩
  | .hbm, ⟨23, _⟩ => ⟨S32x24576, .f32⟩
  | .hbm, ⟨24, _⟩ => ⟨S32x24576, .f32⟩
  | .hbm, ⟨25, _⟩ => ⟨S32x8192x3, .f32⟩
  | .hbm, ⟨26, _⟩ => ⟨S_, .i32⟩
  | .hbm, ⟨27, _⟩ => ⟨S8192x16, .i32⟩
  | .hbm, ⟨28, _⟩ => ⟨S8192x16, .i1⟩
  | .hbm, ⟨29, _⟩ => ⟨S_, .i32⟩
  | .hbm, ⟨30, _⟩ => ⟨S8192x16, .i32⟩
  | .hbm, ⟨31, _⟩ => ⟨S8192x16, .i32⟩
  | .hbm, ⟨32, _⟩ => ⟨S8192x16, .i32⟩
  | .hbm, ⟨33, _⟩ => ⟨S8192x16x1, .i32⟩
  | .hbm, ⟨34, _⟩ => ⟨S32x8192x16x3, .f32⟩
  | .hbm, ⟨35, _⟩ => ⟨S_, .i32⟩
  | .hbm, ⟨36, _⟩ => ⟨S8192x16, .i32⟩
  | .hbm, ⟨37, _⟩ => ⟨S8192x16, .i1⟩
  | .hbm, ⟨38, _⟩ => ⟨S_, .i32⟩
  | .hbm, ⟨39, _⟩ => ⟨S8192x16, .i32⟩
  | .hbm, ⟨40, _⟩ => ⟨S8192x16, .i32⟩
  | .hbm, ⟨41, _⟩ => ⟨S8192x16, .i32⟩
  | .hbm, ⟨42, _⟩ => ⟨S8192x16x1, .i32⟩
  | .hbm, ⟨43, _⟩ => ⟨S32x8192x16x3, .f32⟩
  | .hbm, ⟨44, _⟩ => ⟨S32x8192x1x3, .f32⟩
  | .hbm, ⟨45, _⟩ => ⟨S32x8192x16x3, .f32⟩
  | .hbm, ⟨46, _⟩ => ⟨S32x8192x16x3, .f32⟩
  | .hbm, ⟨47, _⟩ => ⟨S32x8192x1x3, .f32⟩
  | .hbm, ⟨48, _⟩ => ⟨S32x8192x16x3, .f32⟩
  | .hbm, ⟨49, _⟩ => ⟨S32x8192x16x3, .f32⟩
  | .hbm, ⟨50, _⟩ => ⟨S32x8192x16x3, .f32⟩
  | .hbm, ⟨51, _⟩ => ⟨S1x8192x16, .f32⟩
  | .hbm, ⟨52, _⟩ => ⟨S_, .f32⟩
  | .hbm, ⟨53, _⟩ => ⟨S1x8192x16, .f32⟩
  | .hbm, ⟨54, _⟩ => ⟨S1x8192x16, .f32⟩
  | .hbm, ⟨55, _⟩ => ⟨S32x8192x16x3, .f32⟩
  | .hbm, ⟨56, _⟩ => ⟨S_, .f32⟩
  | .hbm, ⟨57, _⟩ => ⟨S32x8192x16, .f32⟩
  | .hbm, ⟨58, _⟩ => ⟨S32x8192x16, .f32⟩
  | .hbm, ⟨59, _⟩ => ⟨S32x8192x16, .f32⟩
  | .hbm, ⟨60, _⟩ => ⟨S16, .i32⟩
  | .hbm, ⟨61, _⟩ => ⟨S8192x1, .i32⟩
  | .hbm, ⟨62, _⟩ => ⟨S1x16, .i32⟩
  | .hbm, ⟨63, _⟩ => ⟨S8192x16, .i32⟩
  | .hbm, ⟨64, _⟩ => ⟨S8192x16, .i32⟩
  | .hbm, ⟨65, _⟩ => ⟨S8192x16, .i1⟩
  | .hbm, ⟨66, _⟩ => ⟨S1x8192x16, .i1⟩
  | .hbm, ⟨67, _⟩ => ⟨S_, .f32⟩
  | .hbm, ⟨68, _⟩ => ⟨S32x8192x16, .i1⟩
  | .hbm, ⟨69, _⟩ => ⟨S32x8192x16, .f32⟩
  | .hbm, ⟨70, _⟩ => ⟨S32x8192x16, .f32⟩
  | .hbm, ⟨71, _⟩ => ⟨S_, .f32⟩
  | .hbm, ⟨72, _⟩ => ⟨S32x8192x16, .f32⟩
  | .hbm, ⟨73, _⟩ => ⟨S_, .f32⟩
  | .hbm, ⟨74, _⟩ => ⟨S32x8192, .f32⟩
  | .hbm, ⟨75, _⟩ => ⟨S_, .f32⟩
  | .hbm, ⟨76, _⟩ => ⟨S32x8192, .f32⟩
  | .hbm, ⟨77, _⟩ => ⟨S32x8192, .f32⟩
  | .hbm, ⟨78, _⟩ => ⟨S_, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S32x8192, .f32⟩
  | .hbm, ⟨89, _⟩ => ⟨S_, .f32⟩
  | .hbm, ⟨90, _⟩ => ⟨S32x8192, .f32⟩
  | .hbm, ⟨91, _⟩ => ⟨S32x8192, .f32⟩
  | .hbm, ⟨92, _⟩ => ⟨S32x8192x16, .f32⟩
  | .hbm, ⟨93, _⟩ => ⟨S_, .f32⟩
  | .hbm, ⟨94, _⟩ => ⟨S32x8192x16, .f32⟩
  | .hbm, ⟨95, _⟩ => ⟨S32x8192x16, .f32⟩
  | .hbm, ⟨96, _⟩ => ⟨S32x8192x16, .f32⟩
  | .hbm, ⟨97, _⟩ => ⟨S32x8192x16, .f32⟩
  | .hbm, ⟨98, _⟩ => ⟨S32x8192x16x3, .f32⟩
  | .hbm, ⟨99, _⟩ => ⟨S32x8192x16x3, .f32⟩
  | .hbm, ⟨100, _⟩ => ⟨S32x8192x16x3, .f32⟩
  | .hbm, ⟨101, _⟩ => ⟨S32x8192x16x3, .f32⟩
  | .hbm, ⟨102, _⟩ => ⟨S_, .f32⟩
  | .hbm, ⟨103, _⟩ => ⟨S32x8192x3, .f32⟩
  | .hbm, ⟨104, _⟩ => ⟨S32x8192x1x3, .f32⟩
  | .hbm, ⟨105, _⟩ => ⟨S32x8192x16x3, .f32⟩
  | .hbm, ⟨106, _⟩ => ⟨S_, .f32⟩
  | .hbm, ⟨107, _⟩ => ⟨S32x8192x3, .f32⟩
  | .hbm, ⟨108, _⟩ => ⟨S_, .f32⟩
  | .hbm, ⟨109, _⟩ => ⟨S32x8192x3, .f32⟩
  | .hbm, ⟨110, _⟩ => ⟨S32x8192x3, .f32⟩
  | .hbm, ⟨111, _⟩ => ⟨S32x8192x3, .f32⟩
  | .hbm, ⟨112, _⟩ => ⟨S32x24576, .f32⟩
  | .hbm, ⟨113, _⟩ => ⟨S32x1024, .f32⟩
  | .hbm, ⟨114, _⟩ => ⟨S_, .f32⟩
  | .hbm, ⟨115, _⟩ => ⟨S32x1024, .f32⟩
  | .hbm, ⟨116, _⟩ => ⟨S32x1024, .f32⟩
  | .hbm, ⟨117, _⟩ => ⟨S32x256, .f32⟩
  | _, _ => ⟨S32x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48_1 : Ref sig .tc := ⟨.hbm, 68, rfl⟩
abbrev main_call1_v1 : Ref sig .tc := ⟨.hbm, 69, rfl⟩
abbrev main_v48_0 : Ref sig .tc := ⟨.hbm, 70, rfl⟩
abbrev main_call1_cst : Ref sig .tc := ⟨.hbm, 71, rfl⟩
abbrev main_v48_2 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call2_cst : Ref sig .tc := ⟨.hbm, 93, rfl⟩
abbrev main_call2_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S24576_S1x24576_1 : S24576.BroadcastsInDim S1x24576 (![1] : Fin 1 → Fin S1x24576.rank)
  bcast_S1x24576_S32x24576_0_1 : S1x24576.BroadcastsInDim S32x24576 (![0, 1] : Fin 2 → Fin S32x24576.rank)
  shapeCasts_S32x24576_S32x8192x3 : S32x24576.ShapeCasts S32x8192x3
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S32x8192x3_S32x8192x1x3_0_1_3 : S32x8192x3.BroadcastsInDim S32x8192x1x3 (![0, 1, 3] : Fin 3 → Fin S32x8192x1x3.rank)
  bcast_S32x8192x1x3_S32x8192x16x3_0_1_2_3 : S32x8192x1x3.BroadcastsInDim S32x8192x16x3 (![0, 1, 2, 3] : Fin 4 → Fin S32x8192x16x3.rank)
  bcast_S8192x16_S1x8192x16_1_2 : S8192x16.BroadcastsInDim S1x8192x16 (![1, 2] : Fin 2 → Fin S1x8192x16.rank)
  bcast_S_S1x8192x16 : S_.BroadcastsInDim S1x8192x16 (![] : Fin 0 → Fin S1x8192x16.rank)
  reducesTo_S32x8192x16x3_S32x8192x16_d3 : S32x8192x16x3.ReducesTo [3] S32x8192x16
  h_S_ : 0 < S_.numel
  bcast_S1x8192x16_S32x8192x16_0_1_2 : S1x8192x16.BroadcastsInDim S32x8192x16 (![0, 1, 2] : Fin 3 → Fin S32x8192x16.rank)
  bcast_S8192_S8192x1_0 : S8192.BroadcastsInDim S8192x1 (![0] : Fin 1 → Fin S8192x1.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S8192x1_S8192x16_0_1 : S8192x1.BroadcastsInDim S8192x16 (![0, 1] : Fin 2 → Fin S8192x16.rank)
  bcast_S_S32x8192x16 : S_.BroadcastsInDim S32x8192x16 (![] : Fin 0 → Fin S32x8192x16.rank)
  reducesTo_S32x8192x16_S32x8192_d2 : S32x8192x16.ReducesTo [2] S32x8192
  bcast_S_S32x8192 : S_.BroadcastsInDim S32x8192 (![] : Fin 0 → Fin S32x8192.rank)
  reducesTo_S32x8192_S32_d1 : S32x8192.ReducesTo [1] S32
  bcast_S_S32 : S_.BroadcastsInDim S32 (![] : Fin 0 → Fin S32.rank)
  bcast_S32_S32x8192_0 : S32.BroadcastsInDim S32x8192 (![0] : Fin 1 → Fin S32x8192.rank)
  bcast_S32x8192_S32x8192x16_0_1 : S32x8192.BroadcastsInDim S32x8192x16 (![0, 1] : Fin 2 → Fin S32x8192x16.rank)
  bcast_S32x8192x16_S32x8192x16x3_0_1_2 : S32x8192x16.BroadcastsInDim S32x8192x16x3 (![0, 1, 2] : Fin 3 → Fin S32x8192x16x3.rank)
  reducesTo_S32x8192x16x3_S32x8192x3_d2 : S32x8192x16x3.ReducesTo [2] S32x8192x3
  shapeCasts_S32x8192x3_S32x8192x1x3 : S32x8192x3.ShapeCasts S32x8192x1x3
  reducesTo_S32x8192x1x3_S32x8192x3_d2 : S32x8192x1x3.ReducesTo [2] S32x8192x3
  bcast_S_S32x8192x3 : S_.BroadcastsInDim S32x8192x3 (![] : Fin 0 → Fin S32x8192x3.rank)
  shapeCasts_S32x8192x3_S32x24576 : S32x8192x3.ShapeCasts S32x24576
  dot_S32x256_S256x1024_S32x1024_1_0_0_1_n_n_wf : DotDims.WF S32x256 S256x1024 S32x1024 [1] [0] [0] [1] [] []
  dot_S32x1024_S1024x24576_S32x24576_1_0_0_1_n_n_wf : DotDims.WF S32x1024 S1024x24576 S32x24576 [1] [0] [0] [1] [] []
  gather_S32x8192x3_S8192x16x1_S32x8192x16x3_03_1_n_n_1_2_3213_wf : GatherDims.WF S32x8192x3 S8192x16x1 S32x8192x16x3 [0, 3] [1] [] [1] [] 2 ![32, 1, 3]
  scatter_S32x8192x3_S8192x16x1_S32x8192x16x3_03_1_1_2_wf : ScatterDims.WF S32x8192x3 S8192x16x1 S32x8192x16x3 [0, 3] [1] [1] 2
  dot_S32x24576_S1024x24576_S32x1024_1_1_0_0_n_n_wf : DotDims.WF S32x24576 S1024x24576 S32x1024 [1] [1] [0] [0] [] []
  dot_S32x1024_S256x1024_S32x256_1_1_0_0_n_n_wf : DotDims.WF S32x1024 S256x1024 S32x256 [1] [1] [0] [0] [] []

variable [Facts₀]

def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x24576_S32x24576_1_0_0_1_n_n : DotDims S32x1024 S1024x24576 S32x24576 where
  lhsContracting := [1]
  rhsContracting := [0]
  lhsNonContracting := [0]
  rhsNonContracting := [1]
  lhsBatch := []
  rhsBatch := []
  wf := dot_S32x1024_S1024x24576_S32x24576_1_0_0_1_n_n_wf
def gather_S32x8192x3_S8192x16x1_S32x8192x16x3_03_1_n_n_1_2_3213 : GatherDims S32x8192x3 S8192x16x1 S32x8192x16x3 where
  offsetDims := [0, 3]
  collapsedSliceDims := [1]
  operandBatchingDims := []
  startIndicesBatchingDims := []
  startIndexMap := [1]
  indexVectorDim := 2
  sliceSizes := ![32, 1, 3]
  wf := gather_S32x8192x3_S8192x16x1_S32x8192x16x3_03_1_n_n_1_2_3213_wf
def scatter_S32x8192x3_S8192x16x1_S32x8192x16x3_03_1_1_2 : ScatterDims S32x8192x3 S8192x16x1 S32x8192x16x3 where
  updateWindowDims := [0, 3]
  insertedWindowDims := [1]
  scatterDimsToOperandDims := [1]
  indexVectorDim := 2
  wf := scatter_S32x8192x3_S8192x16x1_S32x8192x16x3_03_1_1_2_wf
def dot_S32x24576_S1024x24576_S32x1024_1_1_0_0_n_n : DotDims S32x24576 S1024x24576 S32x1024 where
  lhsContracting := [1]
  rhsContracting := [1]
  lhsNonContracting := [0]
  rhsNonContracting := [0]
  lhsBatch := []
  rhsBatch := []
  wf := dot_S32x24576_S1024x24576_S32x1024_1_1_0_0_n_n_wf
def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf

class Facts : Prop extends Facts₀ where

variable [Facts]
-- ==== Proof.RefImports.lean ====
/-
  The reference program's run and its operations read one at a time, gathered under one name for the modules
  that speak about the reference's value.
-/
import proofs.«141027_j46059229282940_1_alg».proof.Proof.Gen.ReferenceIdeal.Run
import proofs.«141027_j46059229282940_1_alg».proof.Proof.Gen.ReferenceIdeal.Read
-- ==== Proof.KFold.lean ====
/-
  Which array holds what at each boundary of the kernel program's run. The run's contents are a fold through @main: a
  host stretch rewrites the buffers its operations write, a region its output arrays; everything else is carried. Walked
  back along the fold, each region's input arrays are the argument arrays, an earlier region's output, or a host
  operation's result of them; and the two results are the last region's output and a buffer the last two regions leave
  alone.
-/
import proofs.«141027_j46059229282940_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.KFold

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- A buffer that no operation of a host stretch writes is carried through the stretch. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The first layer's region: entered with the code, the first weights and the bias row -/

/-- The code is untouched when the first region is entered. -/
theorem code_at_entry0 (c : Dev nD) : W1 m ρ c (Proc.devRef .tc main_arg4) = W0 m ρ c (Proc.devRef .tc main_arg4) :=
  calc W1 m ρ c (Proc.devRef .tc main_arg4)
    _ = W0 m ρ c (Proc.devRef .tc main_arg4) := by host_keeps hostOps0

/-- The first weight matrix is untouched when the first region is entered. -/
theorem w1_at_entry0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by host_keeps hostOps0

/-- The first bias as a one-row matrix, as the first region finds it: entry `(0, j)` is the bias's entry `j`. -/
theorem bias1_row (c : Dev nD) (j : Fin 1024) :
    (W1 m ρ c (Proc.devRef .tc main_v0) : Vec F S1x1024 .f32) (ix2 0 j) = (m ((c : Thread nD τ).loc main_arg6) : Vec F S1024 .f32) (ix1 j) := by
  have e : (W1 m ρ c (Proc.devRef .tc main_v0) : Vec F S1x1024 .f32)
      = shapeCast S1x1024 (m ((c : Thread nD τ).loc main_arg6) : Vec F S1024 .f32) shapeCasts_S1024_S1x1024 := by
    show StableHlo.after hostOps0 (W0 m ρ c) (Proc.devRef .tc main_v0) = _
    after_results
    rfl
  rw [e]
  refine shapeCast_apply _ _ _ _ ?_
  show (S1024.rowMajor (ix1 j)).val = (S1x1024.rowMajor (ix2 0 j)).val
  rw [Shape.rowMajor_val_one, Shape.rowMajor_val_two]
  show j.val = 0 * 1024 + j.val
  omega

/-- The hidden activation: the first region's output array after the region. -/
theorem hidden_after0 (c : Dev nD) : W2 m ρ c (Proc.devRef .tc main_v1) = (dat0 (V1 m ρ) c).arrAt 3 cfg0.N :=
  W2_arr m ρ c 3

/-! ## The output layer's region: entered with the hidden activation, the second weights and the bias row -/

/-- The hidden activation is carried to the second region's entry. -/
theorem hidden_at_entry1 (c : Dev nD) : W3 m ρ c (Proc.devRef .tc main_v1) = W2 m ρ c (Proc.devRef .tc main_v1) :=
  calc W3 m ρ c (Proc.devRef .tc main_v1)
    _ = W2 m ρ c (Proc.devRef .tc main_v1) := by host_keeps hostOps1

/-- The second weight matrix is untouched when the second region is entered. -/
theorem w2_at_entry1 (c : Dev nD) : W3 m ρ c (Proc.devRef .tc main_arg7) = W0 m ρ c (Proc.devRef .tc main_arg7) :=
  calc W3 m ρ c (Proc.devRef .tc main_arg7)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0

/-- The second bias is untouched up to the reshape that reads it. -/
theorem b2_before1 (c : Dev nD) : W2 m ρ c (Proc.devRef .tc main_arg8) = W0 m ρ c (Proc.devRef .tc main_arg8) :=
  calc W2 m ρ c (Proc.devRef .tc main_arg8)
    _ = W1 m ρ c (Proc.devRef .tc main_arg8) := W2_of_ne m ρ c main_arg8 (by decide)
    _ = W0 m ρ c (Proc.devRef .tc main_arg8) := by host_keeps hostOps0

/-- The second bias as a one-row matrix, as the second region finds it. -/
theorem bias2_row (c : Dev nD) (n : Fin 24576) :
    (W3 m ρ c (Proc.devRef .tc main_v2) : Vec F S1x24576 .f32) (ix2 0 n) = (m ((c : Thread nD τ).loc main_arg8) : Vec F S24576 .f32) (ix1 n) := by
  have e : (W3 m ρ c (Proc.devRef .tc main_v2) : Vec F S1x24576 .f32)
      = shapeCast S1x24576 (W2 m ρ c (Proc.devRef .tc main_arg8) : Vec F S24576 .f32) shapeCasts_S24576_S1x24576 := by
    show StableHlo.after hostOps1 (W2 m ρ c) (Proc.devRef .tc main_v2) = _
    after_results
    rfl
  rw [e, b2_before1 m ρ c]
  refine shapeCast_apply _ _ _ _ ?_
  show (S24576.rowMajor (ix1 n)).val = (S1x24576.rowMajor (ix2 0 n)).val
  rw [Shape.rowMajor_val_one, Shape.rowMajor_val_two]
  show n.val = 0 * 24576 + n.val
  omega

/-- `flat`: the second region's output array after the region. -/
theorem flat_after1 (c : Dev nD) : W4 m ρ c (Proc.devRef .tc main_v3) = (dat1 (V3 m ρ) c).arrAt 3 cfg1.N :=
  W4_arr m ρ c 3

/-! ## The shared host stretch: entered with `flat` and the four point-cloud arguments -/

/-- The points are untouched when the stretch begins. -/
theorem xyz_at_stretch (c : Dev nD) : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0

/-- The neighbour table is untouched when the stretch begins. -/
theorem nbr_at_stretch (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0

/-- The neighbour counts are untouched when the stretch begins. -/
theorem cnt_at_stretch (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0

/-- The edge weights are untouched when the stretch begins. -/
theorem wgt_at_stretch (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0

/-! ## The output layer's backward region: entered with the cotangent of `flat` and the second weights -/

/-- The second weight matrix is untouched when the third region is entered. -/
theorem w2_at_entry2 (c : Dev nD) : W9 m ρ c (Proc.devRef .tc main_arg7) = W0 m ρ c (Proc.devRef .tc main_arg7) :=
  calc W9 m ρ c (Proc.devRef .tc main_arg7)
    _ = W8 m ρ c (Proc.devRef .tc main_arg7) := by host_keeps hostOps2_4
    _ = W7 m ρ c (Proc.devRef .tc main_arg7) := by host_keeps hostOps2_3
    _ = W6 m ρ c (Proc.devRef .tc main_arg7) := by host_keeps hostOps2_2
    _ = W5 m ρ c (Proc.devRef .tc main_arg7) := by host_keeps hostOps2_1
    _ = W4 m ρ c (Proc.devRef .tc main_arg7) := by host_keeps hostOps2
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0

/-- The cotangent of the hidden activation: the third region's output array after the region. -/
theorem dhidden_after2 (c : Dev nD) : W10 m ρ c (Proc.devRef .tc main_v69) = (dat2 (V9 m ρ) c).arrAt 2 cfg2.N :=
  W10_arr m ρ c 2

/-! ## The first layer's backward region: entered with that cotangent, the hidden activation and the first weights -/

/-- The hidden activation is carried to the last region's entry. -/
theorem hidden_at_entry3 (c : Dev nD) : W10 m ρ c (Proc.devRef .tc main_v1) = W2 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keeps hostOps2_4
    _ = W7 m ρ c (Proc.devRef .tc main_v1) := by host_keeps hostOps2_3
    _ = W6 m ρ c (Proc.devRef .tc main_v1) := by host_keeps hostOps2_2
    _ = W5 m ρ c (Proc.devRef .tc main_v1) := by host_keeps hostOps2_1
    _ = W4 m ρ c (Proc.devRef .tc main_v1) := by host_keeps hostOps2
    _ = W3 m ρ c (Proc.devRef .tc main_v1) := (W4_arr m ρ c 0).trans (((dat1 (V3 m ρ) c).arrAt_in 0 rfl _).trans (A_eq1 (V3 m ρ) c 0))
    _ = W2 m ρ c (Proc.devRef .tc main_v1) := by host_keeps hostOps1

/-- The first weight matrix is untouched when the last region is entered. -/
theorem w1_at_entry3 (c : Dev nD) : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := by host_keeps hostOps2_4
    _ = W7 m ρ c (Proc.devRef .tc main_arg5) := by host_keeps hostOps2_3
    _ = W6 m ρ c (Proc.devRef .tc main_arg5) := by host_keeps hostOps2_2
    _ = W5 m ρ c (Proc.devRef .tc main_arg5) := by host_keeps hostOps2_1
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := by host_keeps hostOps0

/-- The code's cotangent: the last region's output array after the region. -/
theorem dcode_after3 (c : Dev nD) : W11 m ρ c (Proc.devRef .tc main_v70) = (dat3 (V10 m ρ) c).arrAt 3 cfg3.N :=
  W11_arr m ρ c 3

/-- The mean energy, written by the shared stretch, is left alone by the two backward regions. -/
theorem mean_after_stretch (c : Dev nD) : W11 m ρ c (Proc.devRef .tc main_v46) = W9 m ρ c (Proc.devRef .tc main_v46) :=
  calc W11 m ρ c (Proc.devRef .tc main_v46)
    _ = W10 m ρ c (Proc.devRef .tc main_v46) := W11_of_ne m ρ c main_v46 (by decide)
    _ = W9 m ρ c (Proc.devRef .tc main_v46) := W10_of_ne m ρ c main_v46 (by decide)

end Cert.KernelIdeal.KFold

end
-- ==== Proof.Spec.lean ====
/-
  The decoder and its backward pass as functions on the extended reals, index by index.

  A code `c` (32 × 256) is sent through one hidden layer: `pre = c · W₁ + b₁` (32 × 1024), `hid = max(pre, 0)`, and
  `flat = hid · W₂ + b₂` (32 × 24576). Backwards, a cotangent `d` of `flat` gives `dh = d · W₂ᵀ` (every one of the 24576
  columns contracted), the rectifier lets `dh` through where the hidden unit is positive, and `dcode = (dh ⊙ [hid > 0]) · W₁ᵀ`.
  The biases are kept as one-row matrices, the form in which the layers read them.
-/
import Idealize.ShloMosaic.Lib.ValueIdx
import Idealize.ShloMosaic.PureOps.Ideal

noncomputable section

namespace Cert.Spec

open Idealize.ShloMosaic Idealize.ShloMosaic.ValueIdx

/-- An `a × b` matrix of extended reals. -/
abbrev Mat (a b : ℕ) : Type := FVec Ideal ⟨2, ![a, b]⟩ .f32

/-- The hidden layer before the rectifier: `c · W₁ + b₁`. -/
def pre (c : Mat 32 256) (w1 : Mat 256 1024) (b1 : Mat 1 1024) : Mat 32 1024 :=
  fun i => (∑ k : Fin 256, c (ix2 (i 0) k) * w1 (ix2 k (i 1))) + b1 (ix2 0 (i 1))

/-- The hidden layer: the rectified `pre`. -/
def hid (c : Mat 32 256) (w1 : Mat 256 1024) (b1 : Mat 1 1024) : Mat 32 1024 :=
  fun i => max (pre c w1 b1 i) 0

/-- The output layer on a hidden activation `h`: `h · W₂ + b₂`. -/
def flat (h : Mat 32 1024) (w2 : Mat 1024 24576) (b2 : Mat 1 24576) : Mat 32 24576 :=
  fun i => (∑ k : Fin 1024, h (ix2 (i 0) k) * w2 (ix2 k (i 1))) + b2 (ix2 0 (i 1))

/-- The cotangent of the hidden activation: `d · W₂ᵀ`, all 24576 columns contracted. -/
def dh (d : Mat 32 24576) (w2 : Mat 1024 24576) : Mat 32 1024 :=
  fun i => ∑ n : Fin 24576, d (ix2 (i 0) n) * w2 (ix2 (i 1) n)

/-- The rectifier's pass mask as a number: one where the hidden unit is positive, zero elsewhere. -/
def gate (x : EReal) : EReal := if 0 < x then 1 else 0

/-- The cotangent of the code: `(g ⊙ [h > 0]) · W₁ᵀ`. -/
def dcode (g h : Mat 32 1024) (w1 : Mat 256 1024) : Mat 32 256 :=
  fun i => ∑ j : Fin 1024, (g (ix2 (i 0) j) * gate (h (ix2 (i 0) j))) * w1 (ix2 (i 1) j)

theorem pre_ix2 (c : Mat 32 256) (w1 : Mat 256 1024) (b1 : Mat 1 1024) (p : Fin 32) (j : Fin 1024) :
    pre c w1 b1 (ix2 p j) = (∑ k : Fin 256, c (ix2 p k) * w1 (ix2 k j)) + b1 (ix2 0 j) := rfl

theorem hid_ix2 (c : Mat 32 256) (w1 : Mat 256 1024) (b1 : Mat 1 1024) (p : Fin 32) (j : Fin 1024) :
    hid c w1 b1 (ix2 p j) = max ((∑ k : Fin 256, c (ix2 p k) * w1 (ix2 k j)) + b1 (ix2 0 j)) 0 := rfl

theorem flat_ix2 (h : Mat 32 1024) (w2 : Mat 1024 24576) (b2 : Mat 1 24576) (p : Fin 32) (n : Fin 24576) :
    flat h w2 b2 (ix2 p n) = (∑ k : Fin 1024, h (ix2 p k) * w2 (ix2 k n)) + b2 (ix2 0 n) := rfl

theorem dh_ix2 (d : Mat 32 24576) (w2 : Mat 1024 24576) (p : Fin 32) (j : Fin 1024) :
    dh d w2 (ix2 p j) = ∑ n : Fin 24576, d (ix2 p n) * w2 (ix2 j n) := rfl

theorem dcode_ix2 (g h : Mat 32 1024) (w1 : Mat 256 1024) (p : Fin 32) (l : Fin 256) :
    dcode g h w1 (ix2 p l) = ∑ j : Fin 1024, (g (ix2 p j) * gate (h (ix2 p j))) * w1 (ix2 l j) := rfl

/-- A rectified value is positive exactly when the value is. -/
theorem gate_max (x : EReal) : gate (max x 0) = gate x := by
  unfold gate
  by_cases h : 0 < x
  · rw [if_pos h, if_pos (lt_max_of_lt_left h)]
  · rw [if_neg h, if_neg (by rw [max_eq_right (not_lt.mp h)]; exact lt_irrefl 0)]

/-- Letting a cotangent through the pass mask is choosing between it and zero. -/
theorem mul_gate (g x : EReal) : g * gate x = if 0 < x then g else 0 := by
  unfold gate
  split_ifs
  · exact mul_one g
  · exact mul_zero g

end Cert.Spec

end
-- ==== Proof.LibMatmulPlain.lean ====
/-
  A plain matrix product read at an index.

  For `l` of `M` rows and `K` columns and `r` of `K` rows and `N` columns, the product that contracts the last axis of
  `l` with the first axis of `r` into a zero accumulator has, at `(p, n)`, the inner product of row `p` of `l` with
  column `n` of `r`: `∑ k, l (p, k) * r (k, n)`. On the extended reals the accumulator's zero adds nothing, and the
  contraction index, which the dimension record keeps as a one-axis shape, is re-indexed by its one coordinate. Stated for
  the dimension record `DotDims.plain M K N`; a printed record with the same six lists is that record (its last field is
  a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun a => Fin.ext (by
      match a with
      | ⟨0, _⟩ => exact lhs_axis0 _ _
      | ⟨1, _⟩ => exact (lhs_axis1 _ _).trans hk)
  have er : (DotDims.plain M K N).rhsIdx (ix2 p n) ((contrEquiv1 (DotDims.plain M K N) K rfl rfl).symm k) = ix2 k n :=
    funext fun a => Fin.ext (by
      match a with
      | ⟨0, _⟩ => exact (rhs_axis0 _ _).trans hk
      | ⟨1, _⟩ => exact rhs_axis1 _ _)
  rw [el, er]

end Cert.LibMatmulPlain

end
-- ==== Proof.R0Value.lean ====
/-
  The first layer's region, read as a value: after its one grid point the hidden-activation array holds `max(c · W₁ + b₁, 0)`.

  The region has one grid point and each of its four windows is its whole array, so a block read off an array is the
  array and the one write-back fills the output. What the body stores is, entry by entry, the inner product of a row of
  the code with a column of the weights, plus the bias of that column, rectified.
-/
import proofs.«141027_j46059229282940_1_alg».proof.Proof.Gen.KernelIdeal.Frame
import proofs.«141027_j46059229282940_1_alg».proof.Proof.Spec
import proofs.«141027_j46059229282940_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value, entry by entry -/

/-- The offsets of every access of the body are zero on both axes. -/
theorem zero_offsets : (![0, 0] : Fin 2 → Nat) = fun _ => 0 := funext fun a => by fin_cases a <;> rfl

/-- The bias row spread over the 32 rows reads, in row `p` and column `j`, the bias of column `j`. -/
theorem bias_row_apply (x2 : Vec Ideal S1x1024 .f32) (p : Fin 32) (j : Fin 1024) :
    broadcastTo S32x1024 x2 broadcasts_S1x1024_S32x1024 (ix2 p j) = x2 (ix2 0 j) :=
  broadcastTo_apply x2 broadcasts_S1x1024_S32x1024 (ix2 p j) (ix2 0 j) fun a =>
    match a with
    | ⟨0, _⟩ => rfl
    | ⟨1, _⟩ => rfl

/-- What the body stores at `(p, j)`: row `p` of the code against column `j` of the weights, plus the bias of column `j`,
    rectified. On the extended reals the narrowing of the product's operands changes nothing, the zero accumulator adds
    nothing, and the splat zero word is `0`. -/
theorem layer_apply (x0 : Vec Ideal S32x256 .f32) (x1 : Vec Ideal S256x1024 .f32) (x2 : Vec Ideal S1x1024 .f32)
    (p : Fin 32) (j : Fin 1024) :
    k0_pay1 x0 x1 x2 (ix2 p j) = max ((∑ k : Fin 256, x0 (ix2 p k) * x1 (ix2 k j)) + x2 (ix2 0 j)) 0 := by
  unfold k0_pay1
  rw [shapeCast_self]
  show max ((FloatOps.matmul (F := Ideal) (DotDims.plain 32 256 1024) none
        (truncf .bf16 x0 bitsLt_bf16_f32 : FVec Ideal S32x256 .bf16) (truncf .bf16 x1 bitsLt_bf16_f32 : FVec Ideal S256x1024 .bf16)
        (constant ⟨2, ![32, 1024]⟩ .f32 0x00000000#32) (ix2 p j) : EReal)
      + broadcastTo S32x1024 x2 broadcasts_S1x1024_S32x1024 (ix2 p j)) (Ideal.ofBits .f32 0x00000000#32) = _
  rw [Cert.LibMatmulPlain.matmul_zero_apply, Ideal.ofBits_zero_f32, bias_row_apply]
  rfl

/-- So the stored block is the specification's hidden layer of the three loaded blocks. -/
theorem layer_eq (x0 : Vec Ideal S32x256 .f32) (x1 : Vec Ideal S256x1024 .f32) (x2 : Vec Ideal S1x1024 .f32) :
    k0_pay1 x0 x1 x2 = Cert.Spec.hid x0 x1 x2 := by
  funext i
  obtain ⟨p, q, rfl⟩ : ∃ (p : Fin 32) (q : Fin 1024), i = ix2 p q := ⟨i 0, i 1, eq_ix2 i⟩
  exact (layer_apply x0 x1 x2 p q).trans (Cert.Spec.hid_ix2 x0 x1 x2 p q).symm

/-! ## Each window's block is its whole array -/

/-- At the grid's one point every window's block index is zero on both axes. -/
theorem block_origin : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The code's block at `(p, k)` is the code array there. -/
theorem code_block_apply (V : (c : Dev nD) → (b : Ref sig .tc) → Buf (Elt Ideal) ((c : Thread nD τ).loc b)) (c : Dev nD) (t : Fin cfg0.N)
    (p : Fin 32) (k : Fin 256) : iblk0 V c 0 t (ix2 p k) = V c main_arg4 (ix2 p k) := by
  obtain ⟨e0, e1, -⟩ := block_origin t
  show V c main_arg4 (((cfg0.win 0).blk t).view.emb (ix2 p k)) = V c main_arg4 (ix2 p k)
  refine congrArg _ (funext fun a => Fin.ext ?_)
  match a with
  | ⟨0, _⟩ => show win0_0.index t (0 : Fin 2) * 32 + 1 * p.val = p.val; omega
  | ⟨1, _⟩ => show win0_0.index t (1 : Fin 2) * 256 + 1 * k.val = k.val; omega

/-- The weights' block at `(k, j)` is the weight array there. -/
theorem weight_block_apply (V : (c : Dev nD) → (b : Ref sig .tc) → Buf (Elt Ideal) ((c : Thread nD τ).loc b)) (c : Dev nD) (t : Fin cfg0.N)
    (k : Fin 256) (j : Fin 1024) : iblk0 V c 1 t (ix2 k j) = V c main_arg5 (ix2 k j) := by
  obtain ⟨-, -, e0, e1, -⟩ := block_origin t
  show V c main_arg5 (((cfg0.win 1).blk t).view.emb (ix2 k j)) = V c main_arg5 (ix2 k j)
  refine congrArg _ (funext fun a => Fin.ext ?_)
  match a with
  | ⟨0, _⟩ => show win0_1.index t (0 : Fin 2) * 256 + 1 * k.val = k.val; omega
  | ⟨1, _⟩ => show win0_1.index t (1 : Fin 2) * 1024 + 1 * j.val = j.val; omega

/-- The bias's block at `(z, j)` is the bias row there. -/
theorem bias_block_apply (V : (c : Dev nD) → (b : Ref sig .tc) → Buf (Elt Ideal) ((c : Thread nD τ).loc b)) (c : Dev nD) (t : Fin cfg0.N)
    (z : Fin 1) (j : Fin 1024) : iblk0 V c 2 t (ix2 z j) = V c main_v0 (ix2 z j) := by
  obtain ⟨-, -, -, -, e0, e1, -⟩ := block_origin t
  show V c main_v0 (((cfg0.win 2).blk t).view.emb (ix2 z j)) = V c main_v0 (ix2 z j)
  refine congrArg _ (funext fun a => Fin.ext ?_)
  match a with
  | ⟨0, _⟩ => show win0_2.index t (0 : Fin 2) * 1 + 1 * z.val = z.val; omega
  | ⟨1, _⟩ => show win0_2.index t (1 : Fin 2) * 1024 + 1 * j.val = j.val; omega

/-- The code's block is the code array. -/
theorem code_block (V : (c : Dev nD) → (b : Ref sig .tc) → Buf (Elt Ideal) ((c : Thread nD τ).loc b)) (c : Dev nD) (t : Fin cfg0.N) :
    (iblk0 V c 0 t : S32x256.Idx → EReal) = V c main_arg4 := by
  funext i
  obtain ⟨p, k, rfl⟩ : ∃ (p : Fin 32) (k : Fin 256), i = ix2 p k := ⟨i 0, i 1, eq_ix2 i⟩
  exact code_block_apply V c t p k

/-- The weights' block is the weight array. -/
theorem weight_block (V : (c : Dev nD) → (b : Ref sig .tc) → Buf (Elt Ideal) ((c : Thread nD τ).loc b)) (c : Dev nD) (t : Fin cfg0.N) :
    (iblk0 V c 1 t : S256x1024.Idx → EReal) = V c main_arg5 := by
  funext i
  obtain ⟨k, j, rfl⟩ : ∃ (k : Fin 256) (j : Fin 1024), i = ix2 k j := ⟨i 0, i 1, eq_ix2 i⟩
  exact weight_block_apply V c t k j

/-- The bias's block is the bias row. -/
theorem bias_block (V : (c : Dev nD) → (b : Ref sig .tc) → Buf (Elt Ideal) ((c : Thread nD τ).loc b)) (c : Dev nD) (t : Fin cfg0.N) :
    (iblk0 V c 2 t : S1x1024.Idx → EReal) = V c main_v0 := by
  funext i
  obtain ⟨z, j, rfl⟩ : ∃ (z : Fin 1) (j : Fin 1024), i = ix2 z j := ⟨i 0, i 1, eq_ix2 i⟩
  exact bias_block_apply V c t z j

/-- The output's block sits at the array's origin: its entry `(p, j)` is the array's entry `(p, j)`. -/
theorem out_block_index (t : Fin cfg0.N) (p : Fin 32) (j : Fin 1024) :
    ((cfg0.win 3).blk t).view.emb (ix2 p j) = ix2 p j := by
  obtain ⟨-, -, -, -, -, -, e0, e1⟩ := block_origin t
  refine funext fun a => Fin.ext ?_
  match a with
  | ⟨0, _⟩ => show win0_3.index t (0 : Fin 2) * 32 + 1 * p.val = p.val; omega
  | ⟨1, _⟩ => show win0_3.index t (1 : Fin 2) * 1024 + 1 * j.val = j.val; omega

/-! ## The write-back and the array after the region -/

/-- What the point writes back is the output's block of the hidden layer of the three arrays the region was entered with. -/
theorem written_back (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.hid (V c main_arg4) (V c main_arg5) (V c main_v0)) := by
  show (cfg0.win 3).cut (grid0.coords t) ((dat0 V c).after 3 t) = _
  rw [after0_3]
  unfold out0_3
  rw [View.canon_unit_zero zero_offsets]
  simp only [View.ld_unit_zero (S := S32x256) zero_offsets, View.ld_unit_zero (S := S256x1024) zero_offsets, View.ld_unit_zero (S := S1x1024) zero_offsets]
  rw [layer_eq]
  rw [code_block V c t, weight_block V c t, bias_block V c t]
  funext j
  obtain ⟨p, q, rfl⟩ : ∃ (p : Fin 32) (q : Fin 1024), j = ix2 p q := ⟨j 0, j 1, eq_ix2 (n0 := 32) (n1 := 1024) j⟩
  show Cert.Spec.hid (V c main_arg4) (V c main_arg5) (V c main_v0) (ix2 p q)
    = Cert.Spec.hid (V c main_arg4) (V c main_arg5) (V c main_v0) (((cfg0.win 3).blk t).view.emb (ix2 p q))
  rw [out_block_index]

/-- An index of the output array is in the point's block iff each coordinate is in the block's range on its axis. -/
theorem mem_out_block (t : Fin cfg0.N) (i : S32x1024.Idx) :
    i ∈ ((cfg0.win 3).blk t).view.set ↔ ∀ a : Fin 2, win0_3.index t a * S32x1024.size a ≤ (i a).val ∧ (i a).val < win0_3.index t a * S32x1024.size a + S32x1024.size a := by
  show i ∈ ((View.whole main_v1).slice (win0_3.rect t)).set ↔ _
  rw [View.set_slice_whole, Rect.mem_set_unit]
  exact Iff.rfl

/-- The one point's block is the whole output array: every index is in it. -/
theorem out_block_covers (i : S32x1024.Idx) :
    ∃ t : Fin cfg0.N, (cfg0.win 3).flush t = true ∧ i ∈ ((cfg0.win 3).blk t).view.set := by
  refine ⟨t0_0, flush0_3 t0_0, (mem_out_block t0_0 i).2 fun a => ?_⟩
  obtain ⟨-, -, -, -, -, -, e0, e1⟩ := block_origin t0_0
  match a with
  | ⟨0, _⟩ =>
    show win0_3.index t0_0 (0 : Fin 2) * 32 ≤ (i 0).val ∧ (i 0).val < win0_3.index t0_0 (0 : Fin 2) * 32 + 32
    have h : (i 0).val < 32 := (i 0).isLt
    omega
  | ⟨1, _⟩ =>
    show win0_3.index t0_0 (1 : Fin 2) * 1024 ≤ (i 1).val ∧ (i 1).val < win0_3.index t0_0 (1 : Fin 2) * 1024 + 1024
    have h : (i 1).val < 1024 := (i 1).isLt
    omega

/-- After the region the output array is the rectified first layer of the three arrays the region was entered with. -/
theorem final (V : (c : Dev nD) → (b : Ref sig .tc) → Buf (Elt Ideal) ((c : Thread nD τ).loc b)) (c : Dev nD) :
    (dat0 (F := Ideal) V c).arrAt 3 cfg0.N = Cert.Spec.hid (V c main_arg4) (V c main_arg5) (V c main_v0) :=
  (dat0 (F := Ideal) V c).arrAt_eq_of_cover 3 _ (fun t _ => written_back V c t) out_block_covers

end Cert.KernelIdeal.R0

end
-- ==== Proof.R1Value.lean ====
/-
  The output layer's region, read as a value: its twelve column tiles together hold `h · W₂ + b₂`.

  The region walks the 24576 output columns in twelve tiles of 2048. At tile `t` it holds the whole hidden activation
  (32 × 1024), columns `2048·t … 2048·t + 2047` of the weight matrix and of the bias row, and writes the same columns of
  the output. One tile, entry by entry, is the row-by-column inner product plus the bias entry (`tile_apply`); read at
  the array's own column `2048·t + q` that is the output layer's entry there (`written_eq`); and every column lies in the
  tile numbered by its quotient by 2048 (`tiles_cover`), so the whole array ends as the output layer (`final`).
-/
import proofs.«141027_j46059229282940_1_alg».proof.Proof.Gen.KernelIdeal.Frame
import proofs.«141027_j46059229282940_1_alg».proof.Proof.Spec
import proofs.«141027_j46059229282940_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One tile, entry by entry -/

/-- One column tile of the output layer at `(p, q)`: row `p` of the hidden activation against column `q` of the weight
    tile, plus entry `q` of the bias tile. The product goes into a zero accumulator, narrowing the operands is the identity
    on extended reals, and the one bias row is repeated down the 32 rows. -/
theorem tile_apply (x0 : Vec Ideal S32x1024 .f32) (x1 : Vec Ideal S1024x2048 .f32) (x2 : Vec Ideal S1x2048 .f32)
    (p : Fin 32) (q : Fin 2048) :
    k1_pay1 x0 x1 x2 (ix2 p q) = (∑ k : Fin 1024, x0 (ix2 p k) * x1 (ix2 k q)) + x2 (ix2 0 q) := by
  unfold k1_pay1
  simp only [shapeCast_self]
  rw [addf_apply, broadcastTo_1b_ab_apply]
  show FloatOps.matmul (DotDims.plain 32 1024 2048) none _ _ (constant ⟨2, ![32, 2048]⟩ .f32 0x00000000#32) (ix2 p q) + _ = _
  rw [Cert.LibMatmulPlain.matmul_zero_apply]
  rfl

/-! ## Where the twelve tiles sit -/

/-- The origin of a tile's own coordinates. -/
theorem origin2 : (![0, 0] : Fin 2 → Nat) = fun _ => 0 := funext fun a => by fin_cases a <;> rfl

/-- At every tile: the hidden activation is taken whole (block `(0, 0)`); the weight tile and the bias tile are in row
    block 0 and in the SAME column block as the output tile; the output tile is in row block 0 and its column block is one
    of `0 … 11`. -/
theorem tile_columns : ∀ t : Fin cfg1.N,
    win1_0.index t (0 : Fin 2) = 0 ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = 0 ∧ win1_3.index t (1 : Fin 2) ≤ 11 :=
  (by decide +kernel : ∀ t : Fin grid1.N, _)

/-- Each of the twelve column blocks of the output is some tile's. -/
theorem tile_onto : ∀ q : Fin 12, ∃ t : Fin cfg1.N, win1_3.index t = ![0, q.val] :=
  (by decide +kernel : ∀ q : Fin 12, ∃ t : Fin grid1.N, win1_3.index t = ![0, q.val])

variable (V : (c : Dev nD) → (b : Ref sig .tc) → Buf (Elt Ideal) ((c : Thread nD τ).loc b))

/-! ## What a tile writes back -/

/-- Tile `t` writes back its 2048 columns of the output layer of the arrays the region was entered with: entry `(p, q)`
    of the tile is the output layer at `(p, 2048·t + q)`, because the weight and bias tiles were cut at that same column
    and the hidden activation was read whole, so the contraction runs over the same 1024 products. -/
theorem written_eq (c : Dev nD) (t : Fin cfg1.N) :
    (dat1 (F := Ideal) V c).flushed 3 t
      = ((cfg1.win 3).blk t).view.read (Elt Ideal) (Cert.Spec.flat (V c main_v1) (V c main_arg7) (V c main_v2)) := by
  show (cfg1.win 3).cut (grid1.coords t) ((dat1 V c).after 3 t) = _
  rw [after1_3]
  unfold out1_3
  rw [View.canon_unit_zero origin2]
  simp only [View.ld_unit_zero (S := S32x1024) origin2, View.ld_unit_zero (S := S1024x2048) origin2,
    View.ld_unit_zero (S := S1x2048) origin2]
  obtain ⟨a0, a1, b0, b1, c0, c1, d0, d1⟩ := tile_columns t
  funext y
  obtain ⟨p, q, rfl⟩ : ∃ (p : Fin 32) (q : Fin 2048), y = ix2 p q := ⟨y 0, y 1, eq_ix2 y⟩
  show k1_pay1 (iblk1 V c 0 t) (iblk1 V c 1 t) (iblk1 V c 2 t) (ix2 p q)
    = Cert.Spec.flat (V c main_v1) (V c main_arg7) (V c main_v2) (((cfg1.win 3).blk t).view.emb (ix2 p q))
  rw [tile_apply]
  have hq : q.val < 2048 := q.isLt
  -- the tile's entry (p, q) is the array's entry (p, 2048·t + q)
  have e3 : ((cfg1.win 3).blk t).view.emb (ix2 p q)
      = ix2 p (⟨win1_3.index t (1 : Fin 2) * 2048 + q.val, by omega⟩ : Fin 24576) := by
    funext a; apply Fin.ext
    match a with
    | ⟨0, _⟩ => show win1_3.index t (0 : Fin 2) * 32 + 1 * p.val = p.val; omega
    | ⟨1, _⟩ => show win1_3.index t (1 : Fin 2) * 2048 + 1 * q.val = win1_3.index t (1 : Fin 2) * 2048 + q.val; omega
  rw [e3, Cert.Spec.flat_ix2]
  congr 1
  · refine Finset.sum_congr rfl fun k _ => ?_
    congr 1
    · -- the hidden activation, read whole
      show V c main_v1 (((cfg1.win 0).blk t).view.emb (ix2 p k)) = V c main_v1 (ix2 p k)
      refine congrArg _ (funext fun a => Fin.ext ?_)
      match a with
      | ⟨0, _⟩ => show win1_0.index t (0 : Fin 2) * 32 + 1 * p.val = p.val; omega
      | ⟨1, _⟩ => show win1_0.index t (1 : Fin 2) * 1024 + 1 * k.val = k.val; omega
    · -- the weight tile, at the output tile's column
      show V c main_arg7 (((cfg1.win 1).blk t).view.emb (ix2 k q))
        = V c main_arg7 (ix2 k (⟨win1_3.index t (1 : Fin 2) * 2048 + q.val, by omega⟩ : Fin 24576))
      refine congrArg _ (funext fun a => Fin.ext ?_)
      match a with
      | ⟨0, _⟩ => show win1_1.index t (0 : Fin 2) * 1024 + 1 * k.val = k.val; omega
      | ⟨1, _⟩ => show win1_1.index t (1 : Fin 2) * 2048 + 1 * q.val = win1_3.index t (1 : Fin 2) * 2048 + q.val; omega
  · -- the bias tile, at the output tile's column
    show V c main_v2 (((cfg1.win 2).blk t).view.emb (ix2 (0 : Fin 1) q))
      = V c main_v2 (ix2 (0 : Fin 1) (⟨win1_3.index t (1 : Fin 2) * 2048 + q.val, by omega⟩ : Fin 24576))
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + q.val; omega

/-! ## The tiles fill the array -/

/-- An entry of the output array lies in tile `t` exactly when, on each axis, its coordinate is inside the tile's range:
    all 32 rows, and the 2048 columns from `2048` times the tile's column block. -/
theorem mem_tile (t : Fin cfg1.N) (i : S32x24576.Idx) :
    i ∈ ((cfg1.win 3).blk t).view.set ↔ ∀ a : Fin 2, win1_3.index t a * S32x2048.size a ≤ (i a).val
      ∧ (i a).val < win1_3.index t a * S32x2048.size a + S32x2048.size a := by
  show i ∈ ((View.whole main_v3).slice (win1_3.rect t)).set ↔ _
  rw [View.set_slice_whole, Rect.mem_set_unit]
  exact Iff.rfl

/-- Every entry of the output array is written by some tile: column `n` by the tile whose column block is `n / 2048`. -/
theorem tiles_cover (i : S32x24576.Idx) :
    ∃ t : Fin cfg1.N, (cfg1.win 3).flush t = true ∧ i ∈ ((cfg1.win 3).blk t).view.set := by
  have hi0 : (i 0).val < 32 := (i 0).isLt
  have hi1 : (i 1).val < 24576 := (i 1).isLt
  obtain ⟨t, ht⟩ := tile_onto ⟨(i 1).val / 2048, by omega⟩
  have q0 : win1_3.index t (0 : Fin 2) = 0 := congrFun ht 0
  have q1 : win1_3.index t (1 : Fin 2) = (i 1).val / 2048 := congrFun ht 1
  refine ⟨t, flush1_3 t, ?_⟩
  rw [mem_tile]
  intro a
  match a with
  | ⟨0, _⟩ => show win1_3.index t (0 : Fin 2) * 32 ≤ (i 0).val ∧ (i 0).val < win1_3.index t (0 : Fin 2) * 32 + 32; omega
  | ⟨1, _⟩ => show win1_3.index t (1 : Fin 2) * 2048 ≤ (i 1).val ∧ (i 1).val < win1_3.index t (1 : Fin 2) * 2048 + 2048; omega

/-! ## The array after the region -/

/-- After the region the output array is the output layer of the three arrays the region was entered with. -/
theorem final (V : (c : Dev nD) → (b : Ref sig .tc) → Buf (Elt Ideal) ((c : Thread nD τ).loc b)) (c : Dev nD) :
    (dat1 (F := Ideal) V c).arrAt 3 cfg1.N = Cert.Spec.flat (V c main_v1) (V c main_arg7) (V c main_v2) :=
  (dat1 V c).arrAt_eq_of_cover 3 _ (fun t _ => written_eq V c t) tiles_cover

end Cert.KernelIdeal.R1

end
-- ==== Proof.LibMatmulRows.lean ====
/-
  A matrix product whose right factor is stored row by row, read at an index.

  For `l` of `M` rows and `K` columns and `r` of `N` rows and `K` columns, the product that contracts the last axis of
  both (`l · rᵀ`) into a zero accumulator has, at `(p, n)`, the inner product of row `p` of `l` with row `n` of `r`:
  `∑ k, l (p, k) * r (n, k)`. On the extended reals the accumulator's zero adds nothing, and the contraction index,
  which the dimension record keeps as a one-axis shape, is re-indexed by its one coordinate. Stated for the dimension
  record `DotDims.transposedRhs M K N`; a printed record with the same six lists is that record (its last field is a
  proof), so the lemma applies to it after a `show`.
-/
import Idealize.ShloMosaic.Lib.ValueIdx
import Idealize.ShloMosaic.PureOps.Ideal.Laws

noncomputable section

namespace Cert.LibMatmulRows

open Idealize.ShloMosaic Idealize.ShloMosaic.ValueIdx

variable {M K N : ℕ}

/-- The left operand's index keeps the output's row. -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction coordinate. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction coordinate. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `l · rᵀ` into the zero accumulator, at `(p, n)`: the inner product of row `p` of `l` and row `n` of `r`. -/
theorem matmul_zero_apply {φ₁ φ₂ : FTy} (l : FVec Ideal ⟨2, ![M, K]⟩ φ₁) (r : FVec Ideal ⟨2, ![N, K]⟩ φ₂)
    (prec : Option ContractPrecision) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p n) ((contrEquiv1 (DotDims.transposedRhs M K N) K rfl rfl).symm k) = ix2 p k :=
    funext fun a => Fin.ext (by
      match a with
      | ⟨0, _⟩ => exact lhs_axis0 _ _
      | ⟨1, _⟩ => exact (lhs_axis1 _ _).trans hk)
  have er : (DotDims.transposedRhs M K N).rhsIdx (ix2 p n) ((contrEquiv1 (DotDims.transposedRhs M K N) K rfl rfl).symm k) = ix2 n k :=
    funext fun a => Fin.ext (by
      match a with
      | ⟨0, _⟩ => exact rhs_axis0 _ _
      | ⟨1, _⟩ => exact (rhs_axis1 _ _).trans hk)
  rw [el, er]

end Cert.LibMatmulRows

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.R2Value.lean ====
/-
  The output layer's backward region, read as a value: the accumulator, cleared at the first grid point and added to at each of the twelve, ends at `d · W₂ᵀ` over all 24576 columns.
-/
import proofs.«141027_j46059229282940_1_alg».proof.Proof.Gen.KernelIdeal.Frame
import proofs.«141027_j46059229282940_1_alg».proof.Proof.Spec
import proofs.«141027_j46059229282940_1_alg».proof.Proof.LibMatmulRows
import proofs.«141027_j46059229282940_1_alg».proof.Proof.LibBlockSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## What one grid point leaves in the accumulator -/

section Pieces
variable {F : FTy → Type} [FloatOps F]

/-- The offsets of a store or load that covers a whole rank-2 block. -/
theorem hz : (![0, 0] : Fin 2 → Nat) = fun _ => 0 := funext fun a => by fin_cases a <;> rfl

/-- The first point clears the accumulator and then adds its block product: it leaves the update applied to the zero fill. -/
theorem firstPoint_leaves (c : Dev nD) (i : grid2.Coords) (a1 : Memref sig .tc .vmem S32x2048 .f32) (h1 : a1.IsWhole)
    (a2 : Memref sig .tc .vmem S1024x2048 .f32) (h2 : a2.IsWhole) (a3 : Memref sig .tc .vmem S32x1024 .f32) (h3 : a3.IsWhole)
    (hc : cond2_0 i) (x0 : Vec F S32x2048 .f32) (x1 : Vec F S1024x2048 .f32) :
    out2_A_2 c i a1 h1 a2 h2 a3 h3 hc x0 x1 = k2_pay2 x0 x1 (k2_pay1) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S32x1024) hz, View.readCov_unit_zero (S := S32x1024) _ hz]
  simp only [View.readAt_eq_ld, h1.read_unread, h2.read_unread, View.ld_unit_zero (S := S32x2048) hz,
    View.ld_unit_zero (S := S1024x2048) hz, View.ld_unit_zero (S := S32x1024) hz,
    View.readCov_unit_zero (S := S32x1024) _ hz]

/-- A later point adds its block product to what the point before left. -/
theorem laterPoint_leaves (c : Dev nD) (i : grid2.Coords) (a1 : Memref sig .tc .vmem S32x2048 .f32) (h1 : a1.IsWhole)
    (a2 : Memref sig .tc .vmem S1024x2048 .f32) (h2 : a2.IsWhole) (a3 : Memref sig .tc .vmem S32x1024 .f32) (h3 : a3.IsWhole)
    (hc : ¬cond2_0 i) (x0 : Vec F S32x2048 .f32) (x1 : Vec F S1024x2048 .f32) (xo : Vec F S32x1024 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S32x2048) hz,
    View.ld_unit_zero (S := S1024x2048) hz, View.ld_unit_zero (S := S32x1024) hz]

end Pieces

/-! ## The update at an entry, over the extended reals -/

/-- The update at `(p, j)`: the old entry plus the inner product of row `p` of the cotangent block with row `j` of the
    weight block (the narrowing of both operands is the identity on extended reals, the product's zero start adds nothing). -/
theorem update_apply (x0 : Vec Ideal S32x2048 .f32) (x1 : Vec Ideal S1024x2048 .f32) (xo : Vec Ideal S32x1024 .f32)
    (p : Fin 32) (j : Fin 1024) :
    k2_pay2 (F := Ideal) x0 x1 xo (ix2 p j) = xo (ix2 p j) + ∑ q : Fin 2048, x0 (ix2 p q) * x1 (ix2 j q) := by
  have e1 : shapeCast S32x1024 xo shapeCasts_S32x1024_S32x1024 = xo := shapeCast_self xo _
  have e0 : shapeCast S32x2048 x0 shapeCasts_S32x2048_S32x2048 = x0 := shapeCast_self x0 _
  unfold k2_pay2
  show (shapeCast S32x1024 xo shapeCasts_S32x1024_S32x1024 (ix2 p j) : EReal)
      + FloatOps.matmul (F := Ideal) (DotDims.transposedRhs 32 2048 1024) none
          (truncf (F := Ideal) .bf16 (shapeCast S32x2048 x0 shapeCasts_S32x2048_S32x2048) bitsLt_bf16_f32)
          (truncf (F := Ideal) .bf16 x1 bitsLt_bf16_f32) (constant (F := Ideal) ⟨2, ![32, 1024]⟩ .f32 0x00000000#32) (ix2 p j) = _
  rw [e1, e0]
  exact congrArg (xo (ix2 p j) + ·)
    (Cert.LibMatmulRows.matmul_zero_apply (truncf (F := Ideal) .bf16 x0 bitsLt_bf16_f32)
      (truncf (F := Ideal) .bf16 x1 bitsLt_bf16_f32) none p j)

/-- The fill the first point stores is zero everywhere. -/
theorem zeroFill_apply (i : S32x1024.Idx) : k2_pay1 (F := Ideal) i = 0 := by
  unfold k2_pay1
  show Ideal.ofBits .f32 0x00000000#32 = 0
  exact Ideal.ofBits_zero_f32

/-! ## The blocks a point reads, off the two arrays -/

section Region
variable (V : (c : Dev nD) → (b : Ref sig .tc) → Buf (Elt Ideal) ((c : Thread nD τ).loc b))

/-- The cotangent's block at point `t`: columns `2048 t, …, 2048 t + 2047`. -/
abbrev dblk (c : Dev nD) (t : Fin cfg2.N) : Vec Ideal S32x2048 .f32 := iblk2 V c 0 t
/-- The weight matrix's block at point `t`: the same columns of all its rows. -/
abbrev wblk (c : Dev nD) (t : Fin cfg2.N) : Vec Ideal S1024x2048 .f32 := iblk2 V c 1 t
/-- The cotangent of the output layer, as the region finds it. -/
abbrev darr (c : Dev nD) : Vec Ideal S32x24576 .f32 := V c main_v68
/-- The second weight matrix, as the region finds it. -/
abbrev warr (c : Dev nD) : Vec Ideal S1024x24576 .f32 := V c main_arg7

/-- Where the three windows sit at point `t`: both inputs at column block `t`, the accumulator always at the origin. -/
theorem window_positions : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0 :=
  (by decide +kernel : ∀ t : Fin grid2.N, _)

/-- Entry `(p, q)` of the cotangent's block at point `t` is entry `(p, 2048 t + q)` of the cotangent. -/
theorem dblk_apply (c : Dev nD) (t : Fin cfg2.N) (p : Fin 32) (q : Fin 2048) (h : t.val * 2048 + q.val < 24576) :
    dblk V c t (ix2 p q) = darr V c (ix2 p ⟨t.val * 2048 + q.val, h⟩) := by
  obtain ⟨e0, e1, -⟩ := window_positions t
  show V c main_v68 (((cfg2.win 0).blk t).view.emb (ix2 p q)) = V c main_v68 (ix2 p ⟨t.val * 2048 + q.val, h⟩)
  refine congrArg _ (funext fun a => Fin.ext ?_)
  match a with
  | ⟨0, _⟩ => show win2_0.index t (0 : Fin 2) * 32 + 1 * p.val = p.val; omega
  | ⟨1, _⟩ => show win2_0.index t (1 : Fin 2) * 2048 + 1 * q.val = t.val * 2048 + q.val; omega

/-- Entry `(j, q)` of the weight block at point `t` is entry `(j, 2048 t + q)` of the weight matrix. -/
theorem wblk_apply (c : Dev nD) (t : Fin cfg2.N) (j : Fin 1024) (q : Fin 2048) (h : t.val * 2048 + q.val < 24576) :
    wblk V c t (ix2 j q) = warr V c (ix2 j ⟨t.val * 2048 + q.val, h⟩) := by
  obtain ⟨-, -, e0, e1, -⟩ := window_positions t
  show V c main_arg7 (((cfg2.win 1).blk t).view.emb (ix2 j q)) = V c main_arg7 (ix2 j ⟨t.val * 2048 + q.val, h⟩)
  refine congrArg _ (funext fun a => Fin.ext ?_)
  match a with
  | ⟨0, _⟩ => show win2_1.index t (0 : Fin 2) * 1024 + 1 * j.val = j.val; omega
  | ⟨1, _⟩ => show win2_1.index t (1 : Fin 2) * 2048 + 1 * q.val = t.val * 2048 + q.val; omega

/-! ## The accumulator after each point -/

/-- The terms of the contraction at `(p, j)`, listed by column: `d (p, n) · W₂ (j, n)`, zero beyond the last column. -/
def term (c : Dev nD) (p : Fin 32) (j : Fin 1024) (n : ℕ) : EReal :=
  if h : n < 24576 then darr V c (ix2 p ⟨n, h⟩) * warr V c (ix2 j ⟨n, h⟩) else 0

/-- The inner product of the two blocks at point `t` is block `t` of the contraction, 2048 terms wide. -/
theorem blockProduct_eq (c : Dev nD) (t : Fin cfg2.N) (p : Fin 32) (j : Fin 1024) :
    ∑ q : Fin 2048, dblk V c t (ix2 p q) * wblk V c t (ix2 j q) = Cert.Spec.block (term V c p j) 2048 t.val := by
  have hN : t.val < 12 := lt_of_lt_of_eq t.isLt (show cfg2.N = 12 from N_2)
  unfold Cert.Spec.block
  rw [Finset.sum_range]
  refine Finset.sum_congr rfl fun q _ => ?_
  have h : t.val * 2048 + q.val < 24576 := by have := q.isLt; omega
  rw [dblk_apply V c t p q h, wblk_apply V c t j q h]
  unfold term
  rw [dif_pos h]

/-- After point `n` the accumulator holds, at `(p, j)`, blocks `0, …, n` of the contraction added in order onto zero:
    by induction on the point, the first clearing and adding, each later one adding to what it finds. -/
theorem accumulator_after (c : Dev nD) (p : Fin 32) (j : Fin 1024) :
    ∀ (n : ℕ) (hn : n < cfg2.N), outsAt2 V c n hn (ix2 p j) = Cert.Spec.accum0 (term V c p j) 2048 n
  | 0, hn => by
    refine (congrFun (outsAt2_A V c ⟨0, hn⟩ rfl) (ix2 p j)).trans ?_
    refine (congrFun (firstPoint_leaves (F := Ideal) c (grid2.coords ⟨0, hn⟩) (ms2_0 ⟨0, hn⟩) (hs2_0 ⟨0, hn⟩)
      (ms2_1 ⟨0, hn⟩) (hs2_1 ⟨0, hn⟩) (ms2_2 ⟨0, hn⟩) (hs2_2 ⟨0, hn⟩) ((hcond2_0 ⟨0, hn⟩).mpr rfl)
      (dblk V c ⟨0, hn⟩) (wblk V c ⟨0, hn⟩)) (ix2 p j)).trans ?_
    refine (update_apply (dblk V c ⟨0, hn⟩) (wblk V c ⟨0, hn⟩) (k2_pay1 (F := Ideal)) p j).trans ?_
    rw [zeroFill_apply, blockProduct_eq V c ⟨0, hn⟩ p j]
    rfl
  | n + 1, hn => by
    have hN : cfg2.N = 12 := N_2
    have hB : ¬(⟨n + 1, hn⟩ : Fin cfg2.N).val % 12 = 0 := by dsimp only; omega
    refine (congrFun (outsAt2_B V c ⟨n + 1, hn⟩ hB) (ix2 p j)).trans ?_
    refine (congrFun (laterPoint_leaves (F := Ideal) c (grid2.coords ⟨n + 1, hn⟩) (ms2_0 ⟨n + 1, hn⟩) (hs2_0 ⟨n + 1, hn⟩)
      (ms2_1 ⟨n + 1, hn⟩) (hs2_1 ⟨n + 1, hn⟩) (ms2_2 ⟨n + 1, hn⟩) (hs2_2 ⟨n + 1, hn⟩)
      (fun h => hB ((hcond2_0 ⟨n + 1, hn⟩).mp h)) (dblk V c ⟨n + 1, hn⟩) (wblk V c ⟨n + 1, hn⟩)
      (outsAt2 V c n (Nat.lt_of_succ_lt hn))) (ix2 p j)).trans ?_
    refine (update_apply (dblk V c ⟨n + 1, hn⟩) (wblk V c ⟨n + 1, hn⟩) (outsAt2 V c n (Nat.lt_of_succ_lt hn)) p j).trans ?_
    rw [accumulator_after c p j n (Nat.lt_of_succ_lt hn), blockProduct_eq V c ⟨n + 1, hn⟩ p j]
    rfl

/-- After the twelfth point the accumulator holds the whole contraction over the 24576 columns. -/
theorem accumulator_last (c : Dev nD) :
    outsAt2 V c (t2_11 : Fin cfg2.N).val (t2_11 : Fin cfg2.N).isLt = Cert.Spec.dh (V c main_v68) (V c main_arg7) := by
  funext i
  obtain ⟨p, j, rfl⟩ : ∃ (p : Fin 32) (j : Fin 1024), i = ix2 p j := ⟨i 0, i 1, eq_ix2 i⟩
  rw [accumulator_after V c p j, Cert.Spec.accum0_eq, Cert.Spec.dh_ix2]
  show ∑ n ∈ Finset.range 24576, term V c p j n = _
  rw [Finset.sum_range]
  refine Finset.sum_congr rfl fun n _ => ?_
  unfold term
  rw [dif_pos n.isLt]

/-! ## The one write-back -/

/-- The only point that writes the accumulator back is the last; its block is the whole array, so what it writes back,
    read through the block, is the whole contraction. -/
theorem writeback_eq (c : Dev nD) (t : Fin cfg2.N) (hf : (cfg2.win 2).flush t = true) :
    (dat2 V c).flushed 2 t = ((cfg2.win 2).blk t).view.read (Elt Ideal) (Cert.Spec.dh (V c main_v68) (V c main_arg7)) := by
  have hN : cfg2.N = 12 := N_2
  have h11 : t.val = 11 := by have := (flush2_2 t).mp hf; have := t.isLt; omega
  obtain rfl : t = t2_11 := Fin.ext h11
  show (cfg2.win 2).cut (grid2.coords t2_11) ((dat2 V c).after 2 t2_11) = _
  rw [after2_2, accumulator_last]
  obtain ⟨-, -, -, -, e0, e1⟩ := window_positions t2_11
  have hz' : (fun a => win2_2.index t2_11 a * main_v69.ty.shape.size a) = fun _ => 0 := funext fun a => by
    match a with
    | ⟨0, _⟩ => show win2_2.index t2_11 (0 : Fin 2) * 32 = 0; rw [e0]
    | ⟨1, _⟩ => show win2_2.index t2_11 (1 : Fin 2) * 1024 = 0; rw [e1]
  exact (Memref.read_access_unit_zero (Elt Ideal) main_v69 hz' (fun a => by rw [congrFun hz' a]; simp)
    (Cert.Spec.dh (V c main_v68) (V c main_arg7))).symm

end Region

/-- After the region the output array is the whole contraction of the cotangent with the second weight matrix. -/
theorem final (V : (c : Dev nD) → (b : Ref sig .tc) → Buf (Elt Ideal) ((c : Thread nD τ).loc b)) (c : Dev nD) :
    (dat2 (F := Ideal) V c).arrAt 2 cfg2.N = Cert.Spec.dh (V c main_v68) (V c main_arg7) :=
  (dat2 (F := Ideal) V c).arrAt_eq_of_cover 2 (Cert.Spec.dh (V c main_v68) (V c main_arg7)) (writeback_eq V c) fun i =>
    ⟨t2_11, (flush2_2 t2_11).mpr rfl, by
      show i ∈ ((View.whole main_v69).slice (win2_2.rect t2_11)).set
      rw [View.set_slice_whole, Rect.mem_set_unit]
      intro a
      obtain ⟨-, -, -, -, e0, e1⟩ := window_positions t2_11
      have h0 : (i 0 : Nat) < 32 := (i 0).isLt
      have h1 : (i 1 : Nat) < 1024 := (i 1).isLt
      match a with
      | ⟨0, _⟩ =>
        show win2_2.index t2_11 (0 : Fin 2) * 32 ≤ (i 0 : Nat) ∧ (i 0 : Nat) < win2_2.index t2_11 (0 : Fin 2) * 32 + 32
        omega
      | ⟨1, _⟩ =>
        show win2_2.index t2_11 (1 : Fin 2) * 1024 ≤ (i 1 : Nat) ∧ (i 1 : Nat) < win2_2.index t2_11 (1 : Fin 2) * 1024 + 1024
        omega⟩

end Cert.KernelIdeal.R2

end
-- ==== Proof.R3Value.lean ====
/-
  The first layer's backward region, read as a value: `(dh ⊙ [h > 0]) · W₁ᵀ`.

  The region has one grid point and each of its four windows is its whole array, so a block read off an array is the
  array and the one write-back fills the output. What the body stores is, entry by entry, a row of the cotangent, let
  through where the hidden activation is positive, against a row of the weights.
-/
import proofs.«141027_j46059229282940_1_alg».proof.Proof.Gen.KernelIdeal.Frame
import proofs.«141027_j46059229282940_1_alg».proof.Proof.Spec
import proofs.«141027_j46059229282940_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value, entry by entry -/

/-- The offsets of every access of the body are zero on both axes. -/
theorem zero_offsets : (![0, 0] : Fin 2 → Nat) = fun _ => 0 := funext fun a => by fin_cases a <;> rfl

/-- The comparison "above zero", widened to a 32-bit word and converted to a number, is the rectifier's pass mask:
    one where the value is positive, zero elsewhere. -/
theorem pass_mask (x : EReal) :
    ((((Ideal.cmp .ogt x (Ideal.ofBits .f32 0x00000000#32)).setWidth 32).toInt : ℝ) : EReal) = Cert.Spec.gate x := by
  rw [Ideal.ofBits_zero_f32]
  unfold Ideal.cmp Cert.Spec.gate
  by_cases h : 0 < x
  · simp [h]
  · simp [h]

/-- What the body stores at `(p, l)`: row `p` of the masked cotangent against row `l` of the weights, both last axes
    contracted. `v0` is the hidden activation the mask is taken of, `v6` the cotangent it lets through. On the extended
    reals the narrowing of the product's operands changes nothing and the zero accumulator adds nothing. -/
theorem masked_product_apply (v0 v6 : Vec Ideal S32x1024 .f32) (v10 : Vec Ideal S256x1024 .f32) (p : Fin 32) (l : Fin 256) :
    k3_pay1 v0 v6 v10 (ix2 p l) = ∑ j : Fin 1024, (v6 (ix2 p j) * Cert.Spec.gate (v0 (ix2 p j))) * v10 (ix2 l j) := by
  unfold k3_pay1
  rw [shapeCast_self, shapeCast_self]
  show FloatOps.matmul (F := Ideal) (DotDims.transposedRhs 32 1024 256) none
        (_ : FVec Ideal ⟨2, ![32, 1024]⟩ .bf16) (_ : FVec Ideal ⟨2, ![256, 1024]⟩ .bf16)
        (constant ⟨2, ![32, 256]⟩ .f32 0x00000000#32) (ix2 p l) = _
  rw [Cert.LibMatmulRows.matmul_zero_apply]
  refine Finset.sum_congr rfl fun j _ => ?_
  show (v6 (ix2 p j) * ((((Ideal.cmp .ogt (v0 (ix2 p j)) (Ideal.ofBits .f32 0x00000000#32)).setWidth 32).toInt : ℝ) : EReal)) * v10 (ix2 l j) = _
  rw [pass_mask]

/-- So the stored block is the specification's cotangent of the code, of the cotangent block, the activation block and
    the weight block. -/
theorem masked_product_eq (v0 v6 : Vec Ideal S32x1024 .f32) (v10 : Vec Ideal S256x1024 .f32) :
    k3_pay1 v0 v6 v10 = Cert.Spec.dcode v6 v0 v10 := by
  funext i
  obtain ⟨p, l, rfl⟩ : ∃ (p : Fin 32) (l : Fin 256), i = ix2 p l := ⟨i 0, i 1, eq_ix2 i⟩
  exact (masked_product_apply v0 v6 v10 p l).trans (Cert.Spec.dcode_ix2 v6 v0 v10 p l).symm

/-! ## Each window's block is its whole array -/

/-- At the grid's one point every window's block index is zero on both axes. -/
theorem block_origin : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The cotangent's block at `(p, j)` is the cotangent array there. -/
theorem cotangent_block_apply (V : (c : Dev nD) → (b : Ref sig .tc) → Buf (Elt Ideal) ((c : Thread nD τ).loc b)) (c : Dev nD) (t : Fin cfg3.N)
    (p : Fin 32) (j : Fin 1024) : iblk3 V c 0 t (ix2 p j) = V c main_v69 (ix2 p j) := by
  obtain ⟨e0, e1, -⟩ := block_origin t
  show V c main_v69 (((cfg3.win 0).blk t).view.emb (ix2 p j)) = V c main_v69 (ix2 p j)
  refine congrArg _ (funext fun a => Fin.ext ?_)
  match a with
  | ⟨0, _⟩ => show win3_0.index t (0 : Fin 2) * 32 + 1 * p.val = p.val; omega
  | ⟨1, _⟩ => show win3_0.index t (1 : Fin 2) * 1024 + 1 * j.val = j.val; omega

/-- The activation's block at `(p, j)` is the activation array there. -/
theorem activation_block_apply (V : (c : Dev nD) → (b : Ref sig .tc) → Buf (Elt Ideal) ((c : Thread nD τ).loc b)) (c : Dev nD) (t : Fin cfg3.N)
    (p : Fin 32) (j : Fin 1024) : iblk3 V c 1 t (ix2 p j) = V c main_v1 (ix2 p j) := by
  obtain ⟨-, -, e0, e1, -⟩ := block_origin t
  show V c main_v1 (((cfg3.win 1).blk t).view.emb (ix2 p j)) = V c main_v1 (ix2 p j)
  refine congrArg _ (funext fun a => Fin.ext ?_)
  match a with
  | ⟨0, _⟩ => show win3_1.index t (0 : Fin 2) * 32 + 1 * p.val = p.val; omega
  | ⟨1, _⟩ => show win3_1.index t (1 : Fin 2) * 1024 + 1 * j.val = j.val; omega

/-- The weights' block at `(l, j)` is the weight array there. -/
theorem weight_block_apply (V : (c : Dev nD) → (b : Ref sig .tc) → Buf (Elt Ideal) ((c : Thread nD τ).loc b)) (c : Dev nD) (t : Fin cfg3.N)
    (l : Fin 256) (j : Fin 1024) : iblk3 V c 2 t (ix2 l j) = V c main_arg5 (ix2 l j) := by
  obtain ⟨-, -, -, -, e0, e1, -⟩ := block_origin t
  show V c main_arg5 (((cfg3.win 2).blk t).view.emb (ix2 l j)) = V c main_arg5 (ix2 l j)
  refine congrArg _ (funext fun a => Fin.ext ?_)
  match a with
  | ⟨0, _⟩ => show win3_2.index t (0 : Fin 2) * 256 + 1 * l.val = l.val; omega
  | ⟨1, _⟩ => show win3_2.index t (1 : Fin 2) * 1024 + 1 * j.val = j.val; omega

/-- The cotangent's block is the cotangent array. -/
theorem cotangent_block (V : (c : Dev nD) → (b : Ref sig .tc) → Buf (Elt Ideal) ((c : Thread nD τ).loc b)) (c : Dev nD) (t : Fin cfg3.N) :
    (iblk3 V c 0 t : S32x1024.Idx → EReal) = V c main_v69 := by
  funext i
  obtain ⟨p, j, rfl⟩ : ∃ (p : Fin 32) (j : Fin 1024), i = ix2 p j := ⟨i 0, i 1, eq_ix2 i⟩
  exact cotangent_block_apply V c t p j

/-- The activation's block is the activation array. -/
theorem activation_block (V : (c : Dev nD) → (b : Ref sig .tc) → Buf (Elt Ideal) ((c : Thread nD τ).loc b)) (c : Dev nD) (t : Fin cfg3.N) :
    (iblk3 V c 1 t : S32x1024.Idx → EReal) = V c main_v1 := by
  funext i
  obtain ⟨p, j, rfl⟩ : ∃ (p : Fin 32) (j : Fin 1024), i = ix2 p j := ⟨i 0, i 1, eq_ix2 i⟩
  exact activation_block_apply V c t p j

/-- The weights' block is the weight array. -/
theorem weight_block (V : (c : Dev nD) → (b : Ref sig .tc) → Buf (Elt Ideal) ((c : Thread nD τ).loc b)) (c : Dev nD) (t : Fin cfg3.N) :
    (iblk3 V c 2 t : S256x1024.Idx → EReal) = V c main_arg5 := by
  funext i
  obtain ⟨l, j, rfl⟩ : ∃ (l : Fin 256) (j : Fin 1024), i = ix2 l j := ⟨i 0, i 1, eq_ix2 i⟩
  exact weight_block_apply V c t l j

/-- The output's block sits at the array's origin: its entry `(p, l)` is the array's entry `(p, l)`. -/
theorem out_block_index (t : Fin cfg3.N) (p : Fin 32) (l : Fin 256) :
    ((cfg3.win 3).blk t).view.emb (ix2 p l) = ix2 p l := by
  obtain ⟨-, -, -, -, -, -, e0, e1⟩ := block_origin t
  refine funext fun a => Fin.ext ?_
  match a with
  | ⟨0, _⟩ => show win3_3.index t (0 : Fin 2) * 32 + 1 * p.val = p.val; omega
  | ⟨1, _⟩ => show win3_3.index t (1 : Fin 2) * 256 + 1 * l.val = l.val; omega

/-! ## The write-back and the array after the region -/

/-- What the point writes back is the output's block of the code's cotangent of the three arrays the region was entered
    with. -/
theorem written_back (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Spec.dcode (V c main_v69) (V c main_v1) (V c main_arg5)) := by
  show (cfg3.win 3).cut (grid3.coords t) ((dat3 V c).after 3 t) = _
  rw [after3_3]
  unfold out3_3
  rw [View.canon_unit_zero zero_offsets]
  simp only [View.ld_unit_zero (S := S32x1024) zero_offsets, View.ld_unit_zero (S := S256x1024) zero_offsets]
  rw [masked_product_eq]
  rw [cotangent_block V c t, activation_block V c t, weight_block V c t]
  funext j
  obtain ⟨p, l, rfl⟩ : ∃ (p : Fin 32) (l : Fin 256), j = ix2 p l := ⟨j 0, j 1, eq_ix2 (n0 := 32) (n1 := 256) j⟩
  show Cert.Spec.dcode (V c main_v69) (V c main_v1) (V c main_arg5) (ix2 p l)
    = Cert.Spec.dcode (V c main_v69) (V c main_v1) (V c main_arg5) (((cfg3.win 3).blk t).view.emb (ix2 p l))
  rw [out_block_index]

/-- An index of the output array is in the point's block iff each coordinate is in the block's range on its axis. -/
theorem mem_out_block (t : Fin cfg3.N) (i : S32x256.Idx) :
    i ∈ ((cfg3.win 3).blk t).view.set ↔ ∀ a : Fin 2, win3_3.index t a * S32x256.size a ≤ (i a).val ∧ (i a).val < win3_3.index t a * S32x256.size a + S32x256.size a := by
  show i ∈ ((View.whole main_v70).slice (win3_3.rect t)).set ↔ _
  rw [View.set_slice_whole, Rect.mem_set_unit]
  exact Iff.rfl

/-- The one point's block is the whole output array: every index is in it. -/
theorem out_block_covers (i : S32x256.Idx) :
    ∃ t : Fin cfg3.N, (cfg3.win 3).flush t = true ∧ i ∈ ((cfg3.win 3).blk t).view.set := by
  refine ⟨t3_0, flush3_3 t3_0, (mem_out_block t3_0 i).2 fun a => ?_⟩
  obtain ⟨-, -, -, -, -, -, e0, e1⟩ := block_origin t3_0
  match a with
  | ⟨0, _⟩ =>
    show win3_3.index t3_0 (0 : Fin 2) * 32 ≤ (i 0).val ∧ (i 0).val < win3_3.index t3_0 (0 : Fin 2) * 32 + 32
    have h : (i 0).val < 32 := (i 0).isLt
    omega
  | ⟨1, _⟩ =>
    show win3_3.index t3_0 (1 : Fin 2) * 256 ≤ (i 1).val ∧ (i 1).val < win3_3.index t3_0 (1 : Fin 2) * 256 + 256
    have h : (i 1).val < 256 := (i 1).isLt
    omega

/-- After the region the output array is the code's cotangent of the three arrays the region was entered with. -/
theorem final (V : (c : Dev nD) → (b : Ref sig .tc) → Buf (Elt Ideal) ((c : Thread nD τ).loc b)) (c : Dev nD) :
    (dat3 (F := Ideal) V c).arrAt 3 cfg3.N = Cert.Spec.dcode (V c main_v69) (V c main_v1) (V c main_arg5) :=
  (dat3 (F := Ideal) V c).arrAt_eq_of_cover 3 _ (fun t _ => written_back V c t) out_block_covers

end Cert.KernelIdeal.R3

end
-- ==== Proof.MidChain.lean ====
/-
  The stretch both programs share. Between the decoder's output `flat` and the backward matrix products, the kernel's
  program and the reference apply the same operations — the reshape to points, the two neighbour gathers, the edge
  deviations and their squared norms, the weights, the neighbour-count mask, the two means, and backwards the scaled
  deviations, their sums and the scatter onto the neighbours — to the same argument arrays. So from one `flat` the mean
  energy and the cotangent of `flat` are one function of it on both sides: the chain is never opened, only laid beside
  itself.
-/
import proofs.«141027_j46059229282940_1_alg».proof.Proof.Gen.KernelIdeal.Launch
import proofs.«141027_j46059229282940_1_alg».proof.Proof.RefImports
import Idealize.ShloMosaic.Lib.StableHlo.Run

set_option maxRecDepth 16384

noncomputable section

namespace Cert.Mid

open Idealize.ShloMosaic Idealize.ShloMosaic.TcCoe Idealize.SL.Sem Idealize.ShloMosaic.StableHlo

set_option maxHeartbeats 4000000 in
/-- From buffer contents that hold the argument arrays and, for `flat`, the reference's `flat`, the kernel program's
    host stretch leaves the reference's mean energy. -/
theorem mean_eq (W : Valuation Cert.KernelIdeal.τ Cert.KernelIdeal.sig (Elt Ideal))
    (x0 : (⟨Cert.ReferenceIdeal.S32x8192x3, .f32⟩ : BufTy).Contents (Elt Ideal)) (x1 : (⟨Cert.ReferenceIdeal.S8192x16, .i32⟩ : BufTy).Contents (Elt Ideal)) (x2 : (⟨Cert.ReferenceIdeal.S8192, .i32⟩ : BufTy).Contents (Elt Ideal)) (x3 : (⟨Cert.ReferenceIdeal.S8192x16, .f32⟩ : BufTy).Contents (Elt Ideal))
    (x4 : (⟨Cert.ReferenceIdeal.S32x256, .f32⟩ : BufTy).Contents (Elt Ideal)) (x5 : (⟨Cert.ReferenceIdeal.S256x1024, .f32⟩ : BufTy).Contents (Elt Ideal)) (x6 : (⟨Cert.ReferenceIdeal.S1024, .f32⟩ : BufTy).Contents (Elt Ideal)) (x7 : (⟨Cert.ReferenceIdeal.S1024x24576, .f32⟩ : BufTy).Contents (Elt Ideal)) (x8 : (⟨Cert.ReferenceIdeal.S24576, .f32⟩ : BufTy).Contents (Elt Ideal))
    (h0 : W (Proc.devRef .tc Cert.KernelIdeal.main_arg0) = x0) (h1 : W (Proc.devRef .tc Cert.KernelIdeal.main_arg1) = x1)
    (h2 : W (Proc.devRef .tc Cert.KernelIdeal.main_arg2) = x2) (h3 : W (Proc.devRef .tc Cert.KernelIdeal.main_arg3) = x3)
    (hfl : W (Proc.devRef .tc Cert.KernelIdeal.main_v3) = Cert.ReferenceIdeal.Read.val_main_v11 (F := Ideal) x4 x5 x6 x7 x8) :
    StableHlo.after (Cert.KernelIdeal.Gen.hostOps2_4 (F := Ideal)) (StableHlo.after (Cert.KernelIdeal.Gen.hostOps2_3 (F := Ideal)) (StableHlo.after (Cert.KernelIdeal.Gen.hostOps2_2 (F := Ideal)) (StableHlo.after (Cert.KernelIdeal.Gen.hostOps2_1 (F := Ideal)) (StableHlo.after (Cert.KernelIdeal.Gen.hostOps2 (F := Ideal)) W)))) (Proc.devRef .tc Cert.KernelIdeal.main_v46)
      = Cert.ReferenceIdeal.Read.val_main_v54 (F := Ideal) x0 x1 x2 x3 x4 x5 x6 x7 x8 := by
  subst h0 h1 h2 h3
  simp only [Cert.KernelIdeal.Gen.hostOps2, Cert.KernelIdeal.Gen.hostOps2_1, Cert.KernelIdeal.Gen.hostOps2_2, Cert.KernelIdeal.Gen.hostOps2_3, Cert.KernelIdeal.Gen.hostOps2_4]
  after_results_simp
  rw [hfl]
  rfl

set_option maxHeartbeats 4000000 in
/-- From the same contents the stretch leaves the reference's cotangent of `flat`. -/
theorem dflat_eq (W : Valuation Cert.KernelIdeal.τ Cert.KernelIdeal.sig (Elt Ideal))
    (x0 : (⟨Cert.ReferenceIdeal.S32x8192x3, .f32⟩ : BufTy).Contents (Elt Ideal)) (x1 : (⟨Cert.ReferenceIdeal.S8192x16, .i32⟩ : BufTy).Contents (Elt Ideal)) (x2 : (⟨Cert.ReferenceIdeal.S8192, .i32⟩ : BufTy).Contents (Elt Ideal)) (x3 : (⟨Cert.ReferenceIdeal.S8192x16, .f32⟩ : BufTy).Contents (Elt Ideal))
    (x4 : (⟨Cert.ReferenceIdeal.S32x256, .f32⟩ : BufTy).Contents (Elt Ideal)) (x5 : (⟨Cert.ReferenceIdeal.S256x1024, .f32⟩ : BufTy).Contents (Elt Ideal)) (x6 : (⟨Cert.ReferenceIdeal.S1024, .f32⟩ : BufTy).Contents (Elt Ideal)) (x7 : (⟨Cert.ReferenceIdeal.S1024x24576, .f32⟩ : BufTy).Contents (Elt Ideal)) (x8 : (⟨Cert.ReferenceIdeal.S24576, .f32⟩ : BufTy).Contents (Elt Ideal))
    (h0 : W (Proc.devRef .tc Cert.KernelIdeal.main_arg0) = x0) (h1 : W (Proc.devRef .tc Cert.KernelIdeal.main_arg1) = x1)
    (h2 : W (Proc.devRef .tc Cert.KernelIdeal.main_arg2) = x2) (h3 : W (Proc.devRef .tc Cert.KernelIdeal.main_arg3) = x3)
    (hfl : W (Proc.devRef .tc Cert.KernelIdeal.main_v3) = Cert.ReferenceIdeal.Read.val_main_v11 (F := Ideal) x4 x5 x6 x7 x8) :
    StableHlo.after (Cert.KernelIdeal.Gen.hostOps2_4 (F := Ideal)) (StableHlo.after (Cert.KernelIdeal.Gen.hostOps2_3 (F := Ideal)) (StableHlo.after (Cert.KernelIdeal.Gen.hostOps2_2 (F := Ideal)) (StableHlo.after (Cert.KernelIdeal.Gen.hostOps2_1 (F := Ideal)) (StableHlo.after (Cert.KernelIdeal.Gen.hostOps2 (F := Ideal)) W)))) (Proc.devRef .tc Cert.KernelIdeal.main_v68)
      = Cert.ReferenceIdeal.Read.val_main_v76 (F := Ideal) x0 x1 x2 x3 x4 x5 x6 x7 x8 := by
  subst h0 h1 h2 h3
  simp only [Cert.KernelIdeal.Gen.hostOps2, Cert.KernelIdeal.Gen.hostOps2_1, Cert.KernelIdeal.Gen.hostOps2_2, Cert.KernelIdeal.Gen.hostOps2_3, Cert.KernelIdeal.Gen.hostOps2_4]
  after_results_simp
  rw [hfl]
  rfl

end Cert.Mid

end
-- ==== Proof.RefValue.lean ====
/-
  The reference's four dense layers, read at an index: its hidden activation, its output layer, and the two matrix
  products of its backward pass are the specification's functions of their operands.
-/
import proofs.«141027_j46059229282940_1_alg».proof.Proof.RefImports
import proofs.«141027_j46059229282940_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ### Where each operation reads its operands

Each contraction of the reference reads its left operand along a row and its right operand along a column (or, for the
two products of the backward pass, along a row as well); each bias is read at its column. -/

/-- The first layer's product reads the code's row `p` at `k`. -/
theorem first_layer_left (p : Fin 32) (j : Fin 1024) (k : Fin 256) : lidx_main_v0 (ix2 p j) k = ix2 p k :=
  funext fun a => Fin.ext (by match a with | ⟨0, _⟩ => rfl | ⟨1, _⟩ => rfl)

/-- The first layer's product reads the first weight's column `j` at `k`. -/
theorem first_layer_right (p : Fin 32) (j : Fin 1024) (k : Fin 256) : ridx_main_v0 (ix2 p j) k = ix2 k j :=
  funext fun a => Fin.ext (by match a with | ⟨0, _⟩ => rfl | ⟨1, _⟩ => rfl)

/-- The first bias, spread over the rows, is read at its column `j`. -/
theorem first_bias_at (p : Fin 32) (j : Fin 1024) : idx_main_v1 (idx_main_v2 (ix2 p j)) = ix1 j :=
  funext fun a => Fin.ext (by match a with | ⟨0, _⟩ => rfl)

/-- The second layer's product reads the hidden activation's row `p` at `k`. -/
theorem second_layer_left (p : Fin 32) (n : Fin 24576) (k : Fin 1024) : lidx_main_v8 (ix2 p n) k = ix2 p k :=
  funext fun a => Fin.ext (by match a with | ⟨0, _⟩ => rfl | ⟨1, _⟩ => rfl)

/-- The second layer's product reads the second weight's column `n` at `k`. -/
theorem second_layer_right (p : Fin 32) (n : Fin 24576) (k : Fin 1024) : ridx_main_v8 (ix2 p n) k = ix2 k n :=
  funext fun a => Fin.ext (by match a with | ⟨0, _⟩ => rfl | ⟨1, _⟩ => rfl)

/-- The second bias, spread over the rows, is read at its column `n`. -/
theorem second_bias_at (p : Fin 32) (n : Fin 24576) : idx_main_v9 (idx_main_v10 (ix2 p n)) = ix1 n :=
  funext fun a => Fin.ext (by match a with | ⟨0, _⟩ => rfl)

/-- The hidden cotangent's product reads the output cotangent's row `p` at `n`. -/
theorem hidden_cotangent_left (p : Fin 32) (j : Fin 1024) (n : Fin 24576) : lidx_main_v77 (ix2 p j) n = ix2 p n :=
  funext fun a => Fin.ext (by match a with | ⟨0, _⟩ => rfl | ⟨1, _⟩ => rfl)

/-- The hidden cotangent's product reads the second weight's row `j` at `n`. -/
theorem hidden_cotangent_right (p : Fin 32) (j : Fin 1024) (n : Fin 24576) : ridx_main_v77 (ix2 p j) n = ix2 j n :=
  funext fun a => Fin.ext (by match a with | ⟨0, _⟩ => rfl | ⟨1, _⟩ => rfl)

/-- The code cotangent's product reads the masked hidden cotangent's row `p` at `j`. -/
theorem code_cotangent_left (p : Fin 32) (l : Fin 256) (j : Fin 1024) : lidx_main_v80 (ix2 p l) j = ix2 p j :=
  funext fun a => Fin.ext (by match a with | ⟨0, _⟩ => rfl | ⟨1, _⟩ => rfl)

/-- The code cotangent's product reads the first weight's row `l` at `j`. -/
theorem code_cotangent_right (p : Fin 32) (l : Fin 256) (j : Fin 1024) : ridx_main_v80 (ix2 p l) j = ix2 l j :=
  funext fun a => Fin.ext (by match a with | ⟨0, _⟩ => rfl | ⟨1, _⟩ => rfl)

/-! ### The forward pass at an index -/

/-- The reference's pre-activation at `(p, j)`: row `p` of the code against column `j` of the first weight, plus the bias. -/
theorem pre_activation_at (x4 : (⟨S32x256, .f32⟩ : BufTy).Contents (Elt Ideal)) (x5 : (⟨S256x1024, .f32⟩ : BufTy).Contents (Elt Ideal)) (x6 : (⟨S1024, .f32⟩ : BufTy).Contents (Elt Ideal))
    (p : Fin 32) (j : Fin 1024) :
    val_main_v3 (F := Ideal) x4 x5 x6 (ix2 p j) = (∑ k : Fin 256, x4 (ix2 p k) * x5 (ix2 k j)) + x6 (ix1 j) := by
  rw [val_main_v3_apply, val_main_v0_apply, val_main_v2_apply, val_main_v1_apply]
  simp only [first_layer_left, first_layer_right, first_bias_at, Ideal.addf_def]

/-- The reference's hidden activation at `(p, j)` is its pre-activation there, rectified. -/
theorem hidden_at (x4 : (⟨S32x256, .f32⟩ : BufTy).Contents (Elt Ideal)) (x5 : (⟨S256x1024, .f32⟩ : BufTy).Contents (Elt Ideal)) (x6 : (⟨S1024, .f32⟩ : BufTy).Contents (Elt Ideal))
    (p : Fin 32) (j : Fin 1024) :
    val_main_v4 (F := Ideal) x4 x5 x6 (ix2 p j) = max (val_main_v3 (F := Ideal) x4 x5 x6 (ix2 p j)) 0 := by
  rw [val_main_v4_apply, val_main_call0_v0_apply, val_main_call0_cst_apply]
  simp only [Ideal.maximumf_def, Ideal.ofBits_def, Ideal.ofBits_zero_f32]

/-- The reference's hidden activation is the rectified first layer, its bias read as a one-row matrix `b1r`. -/
theorem hid_eq (x4 : (⟨S32x256, .f32⟩ : BufTy).Contents (Elt Ideal)) (x5 : (⟨S256x1024, .f32⟩ : BufTy).Contents (Elt Ideal)) (x6 : (⟨S1024, .f32⟩ : BufTy).Contents (Elt Ideal))
    (b1r : Cert.Spec.Mat 1 1024) (hb : ∀ j : Fin 1024, b1r (ix2 0 j) = x6 (ix1 j)) :
    val_main_v4 (F := Ideal) x4 x5 x6 = Cert.Spec.hid x4 x5 b1r := by
  funext i
  obtain ⟨p, j, rfl⟩ : ∃ (p : Fin 32) (j : Fin 1024), i = ix2 p j := ⟨i 0, i 1, eq_ix2 i⟩
  rw [hidden_at, pre_activation_at, Cert.Spec.hid_ix2, hb]

/-- The reference's output layer, on its own hidden activation, its bias read as a one-row matrix `b2r`. -/
theorem flat_eq (x4 : (⟨S32x256, .f32⟩ : BufTy).Contents (Elt Ideal)) (x5 : (⟨S256x1024, .f32⟩ : BufTy).Contents (Elt Ideal)) (x6 : (⟨S1024, .f32⟩ : BufTy).Contents (Elt Ideal)) (x7 : (⟨S1024x24576, .f32⟩ : BufTy).Contents (Elt Ideal)) (x8 : (⟨S24576, .f32⟩ : BufTy).Contents (Elt Ideal))
    (b2r : Cert.Spec.Mat 1 24576) (hb : ∀ n : Fin 24576, b2r (ix2 0 n) = x8 (ix1 n)) :
    val_main_v11 (F := Ideal) x4 x5 x6 x7 x8 = Cert.Spec.flat (val_main_v4 (F := Ideal) x4 x5 x6) x7 b2r := by
  funext i
  obtain ⟨p, n, rfl⟩ : ∃ (p : Fin 32) (n : Fin 24576), i = ix2 p n := ⟨i 0, i 1, eq_ix2 i⟩
  rw [val_main_v11_apply, val_main_v8_apply, val_main_v10_apply, val_main_v9_apply, Cert.Spec.flat_ix2, hb]
  generalize val_main_v4 (F := Ideal) x4 x5 x6 = h
  simp only [second_layer_left, second_layer_right, second_bias_at, Ideal.addf_def]

/-! ### The backward pass at an index -/

/-- The reference's cotangent of the hidden activation is the whole contraction of its cotangent of `flat` with `W₂`. -/
theorem dh_eq (x0 : (⟨S32x8192x3, .f32⟩ : BufTy).Contents (Elt Ideal)) (x1 : (⟨S8192x16, .i32⟩ : BufTy).Contents (Elt Ideal)) (x2 : (⟨S8192, .i32⟩ : BufTy).Contents (Elt Ideal)) (x3 : (⟨S8192x16, .f32⟩ : BufTy).Contents (Elt Ideal)) (x4 : (⟨S32x256, .f32⟩ : BufTy).Contents (Elt Ideal)) (x5 : (⟨S256x1024, .f32⟩ : BufTy).Contents (Elt Ideal)) (x6 : (⟨S1024, .f32⟩ : BufTy).Contents (Elt Ideal)) (x7 : (⟨S1024x24576, .f32⟩ : BufTy).Contents (Elt Ideal)) (x8 : (⟨S24576, .f32⟩ : BufTy).Contents (Elt Ideal)) :
    val_main_v77 (F := Ideal) x0 x1 x2 x3 x4 x5 x6 x7 x8
      = Cert.Spec.dh (val_main_v76 (F := Ideal) x0 x1 x2 x3 x4 x5 x6 x7 x8) x7 := by
  funext i
  obtain ⟨p, j, rfl⟩ : ∃ (p : Fin 32) (j : Fin 1024), i = ix2 p j := ⟨i 0, i 1, eq_ix2 i⟩
  rw [val_main_v77_apply, Cert.Spec.dh_ix2]
  generalize val_main_v76 (F := Ideal) x0 x1 x2 x3 x4 x5 x6 x7 x8 = d
  simp only [hidden_cotangent_left, hidden_cotangent_right]

/-- Choosing a cotangent `g` where `x` exceeds zero, and zero elsewhere, by the one-bit word of the comparison. -/
theorem choose_where_positive (x g : EReal) :
    Scalar.select (Ideal.cmp .ogt x 0) g 0 = if 0 < x then g else 0 := by
  unfold Scalar.select Ideal.cmp
  by_cases h : 0 < x
  · simp [h]
  · simp [h]

/-- The reference's masked hidden cotangent at `(p, j)`: the hidden cotangent through the pass mask of the hidden
    activation. The reference tests the pre-activation; a rectified value is positive exactly when the value is. -/
theorem masked_cotangent_at (x0 : (⟨S32x8192x3, .f32⟩ : BufTy).Contents (Elt Ideal)) (x1 : (⟨S8192x16, .i32⟩ : BufTy).Contents (Elt Ideal)) (x2 : (⟨S8192, .i32⟩ : BufTy).Contents (Elt Ideal)) (x3 : (⟨S8192x16, .f32⟩ : BufTy).Contents (Elt Ideal)) (x4 : (⟨S32x256, .f32⟩ : BufTy).Contents (Elt Ideal)) (x5 : (⟨S256x1024, .f32⟩ : BufTy).Contents (Elt Ideal)) (x6 : (⟨S1024, .f32⟩ : BufTy).Contents (Elt Ideal)) (x7 : (⟨S1024x24576, .f32⟩ : BufTy).Contents (Elt Ideal)) (x8 : (⟨S24576, .f32⟩ : BufTy).Contents (Elt Ideal)) (p : Fin 32) (j : Fin 1024) :
    val_main_v79 (F := Ideal) x0 x1 x2 x3 x4 x5 x6 x7 x8 (ix2 p j)
      = val_main_v77 (F := Ideal) x0 x1 x2 x3 x4 x5 x6 x7 x8 (ix2 p j)
          * Cert.Spec.gate (val_main_v4 (F := Ideal) x4 x5 x6 (ix2 p j)) := by
  rw [val_main_v79_apply, val_main_v6_apply, val_main_v5_apply, val_main_cst_apply, val_main_v78_apply,
    val_main_cst_17_apply, hidden_at, Cert.Spec.gate_max, Cert.Spec.mul_gate]
  generalize val_main_v77 (F := Ideal) x0 x1 x2 x3 x4 x5 x6 x7 x8 (ix2 p j) = g
  generalize val_main_v3 (F := Ideal) x4 x5 x6 (ix2 p j) = x
  simp only [Ideal.ofBits_def, Ideal.ofBits_zero_f32]
  exact choose_where_positive x g

/-- The reference's cotangent of the code: its choice between `dh` and zero by the sign of the pre-activation is the pass
    mask of the hidden activation, since a rectified value is positive exactly when the value is. -/
theorem dcode_eq (x0 : (⟨S32x8192x3, .f32⟩ : BufTy).Contents (Elt Ideal)) (x1 : (⟨S8192x16, .i32⟩ : BufTy).Contents (Elt Ideal)) (x2 : (⟨S8192, .i32⟩ : BufTy).Contents (Elt Ideal)) (x3 : (⟨S8192x16, .f32⟩ : BufTy).Contents (Elt Ideal)) (x4 : (⟨S32x256, .f32⟩ : BufTy).Contents (Elt Ideal)) (x5 : (⟨S256x1024, .f32⟩ : BufTy).Contents (Elt Ideal)) (x6 : (⟨S1024, .f32⟩ : BufTy).Contents (Elt Ideal)) (x7 : (⟨S1024x24576, .f32⟩ : BufTy).Contents (Elt Ideal)) (x8 : (⟨S24576, .f32⟩ : BufTy).Contents (Elt Ideal)) :
    val_main_v80 (F := Ideal) x0 x1 x2 x3 x4 x5 x6 x7 x8
      = Cert.Spec.dcode (val_main_v77 (F := Ideal) x0 x1 x2 x3 x4 x5 x6 x7 x8) (val_main_v4 (F := Ideal) x4 x5 x6) x5 := by
  funext i
  obtain ⟨p, l, rfl⟩ : ∃ (p : Fin 32) (l : Fin 256), i = ix2 p l := ⟨i 0, i 1, eq_ix2 i⟩
  rw [val_main_v80_apply, Cert.Spec.dcode_ix2]
  refine Finset.sum_congr rfl fun j _ => ?_
  rw [code_cotangent_left, code_cotangent_right, masked_cotangent_at]

end Cert.ReferenceIdeal.RefValue

end
-- ==== Proof.KValue.lean ====
/-
  The kernel program's two results as the reference's values. Region by region the arrays are the specification's
  functions of what the region was entered with; the reference's dense layers are the same functions; and between the
  decoder and its backward pass both programs apply one and the same chain of operations. So, walking the run from the
  launch: the hidden activation, `flat`, the mean energy and the cotangent of `flat`, the cotangent of the hidden
  activation and the cotangent of the code are, one after the other, the reference's.
-/
import proofs.«141027_j46059229282940_1_alg».proof.Proof.KFold
import proofs.«141027_j46059229282940_1_alg».proof.Proof.R0Value
import proofs.«141027_j46059229282940_1_alg».proof.Proof.R1Value
import proofs.«141027_j46059229282940_1_alg».proof.Proof.R2Value
import proofs.«141027_j46059229282940_1_alg».proof.Proof.R3Value
import proofs.«141027_j46059229282940_1_alg».proof.Proof.MidChain
import proofs.«141027_j46059229282940_1_alg».proof.Proof.RefValue

set_option maxRecDepth 16384

noncomputable section

namespace Cert.KernelIdeal.KValue

open Cert.KernelIdeal Cert.KernelIdeal.Gen
open Idealize.ShloMosaic Idealize.ShloMosaic.TcCoe Idealize.SL.Sem
open Cert.ReferenceIdeal.Read (val_main_v4 val_main_v11 val_main_v54 val_main_v76 val_main_v77 val_main_v80)

variable (m : (ℓ : Loc nD τ sig) → Buf (Elt Ideal) ℓ) (ρ : Dev nD → PrngReg)

/-- The hidden activation the first region leaves is the reference's. -/
theorem hidden_eq (c : Dev nD) :
    W2 m ρ c (Proc.devRef .tc main_v1) = val_main_v4 (F := Ideal) (m ((c : Thread nD τ).loc main_arg4)) (m ((c : Thread nD τ).loc main_arg5)) (m ((c : Thread nD τ).loc main_arg6)) := by
  have e4 : V1 m ρ c main_arg4 = (m ((c : Thread nD τ).loc main_arg4)) := KFold.code_at_entry0 m ρ c
  have e5 : V1 m ρ c main_arg5 = (m ((c : Thread nD τ).loc main_arg5)) := KFold.w1_at_entry0 m ρ c
  have h := R0.final (V1 m ρ) c
  rw [e4, e5] at h
  exact (KFold.hidden_after0 m ρ c).trans (h.trans (Cert.ReferenceIdeal.RefValue.hid_eq _ _ _ _ (KFold.bias1_row m ρ c)).symm)

/-- `flat` as the second region leaves it is the reference's. -/
theorem flat_eq (c : Dev nD) :
    W4 m ρ c (Proc.devRef .tc main_v3) = val_main_v11 (F := Ideal) (m ((c : Thread nD τ).loc main_arg4)) (m ((c : Thread nD τ).loc main_arg5)) (m ((c : Thread nD τ).loc main_arg6)) (m ((c : Thread nD τ).loc main_arg7)) (m ((c : Thread nD τ).loc main_arg8)) := by
  have e1 : V3 m ρ c main_v1 = val_main_v4 (F := Ideal) (m ((c : Thread nD τ).loc main_arg4)) (m ((c : Thread nD τ).loc main_arg5)) (m ((c : Thread nD τ).loc main_arg6)) :=
    (KFold.hidden_at_entry1 m ρ c).trans (hidden_eq m ρ c)
  have e7 : V3 m ρ c main_arg7 = (m ((c : Thread nD τ).loc main_arg7)) := KFold.w2_at_entry1 m ρ c
  have h := R1.final (V3 m ρ) c
  rw [e1, e7] at h
  exact (KFold.flat_after1 m ρ c).trans (h.trans (Cert.ReferenceIdeal.RefValue.flat_eq _ _ _ _ _ _ (KFold.bias2_row m ρ c)).symm)

/-- The mean energy at the end of the run is the reference's. -/
theorem mean_eq (c : Dev nD) :
    W11 m ρ c (Proc.devRef .tc main_v46) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (KFold.mean_after_stretch m ρ c).trans
    (Cert.Mid.mean_eq (W4 m ρ c) _ _ _ _ _ _ _ _ _ (KFold.xyz_at_stretch m ρ c) (KFold.nbr_at_stretch m ρ c)
      (KFold.cnt_at_stretch m ρ c) (KFold.wgt_at_stretch m ρ c) (flat_eq m ρ c))

/-- The cotangent of `flat` the shared stretch leaves is the reference's. -/
theorem dflat_eq (c : Dev nD) :
    W9 m ρ c (Proc.devRef .tc main_v68) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Cert.Mid.dflat_eq (W4 m ρ c) _ _ _ _ _ _ _ _ _ (KFold.xyz_at_stretch m ρ c) (KFold.nbr_at_stretch m ρ c)
    (KFold.cnt_at_stretch m ρ c) (KFold.wgt_at_stretch m ρ c) (flat_eq m ρ c)

/-- The cotangent of the hidden activation the third region leaves is the reference's. -/
theorem dhidden_eq (c : Dev nD) :
    W10 m ρ c (Proc.devRef .tc main_v69) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e68 : V9 m ρ c main_v68 = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := dflat_eq m ρ c
  have e7 : V9 m ρ c main_arg7 = (m ((c : Thread nD τ).loc main_arg7)) := KFold.w2_at_entry2 m ρ c
  have h := R2.final (V9 m ρ) c
  rw [e68, e7] at h
  exact (KFold.dhidden_after2 m ρ c).trans (h.trans (Cert.ReferenceIdeal.RefValue.dh_eq _ _ _ _ _ _ _ _ _).symm)

/-- The code's cotangent at the end of the run is the reference's. -/
theorem dcode_eq (c : Dev nD) :
    W11 m ρ c (Proc.devRef .tc main_v70) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e69 : V10 m ρ c main_v69 = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := dhidden_eq m ρ c
  have e1 : V10 m ρ c main_v1 = val_main_v4 (F := Ideal) (m ((c : Thread nD τ).loc main_arg4)) (m ((c : Thread nD τ).loc main_arg5)) (m ((c : Thread nD τ).loc main_arg6)) :=
    (KFold.hidden_at_entry3 m ρ c).trans (hidden_eq m ρ c)
  have e5 : V10 m ρ c main_arg5 = (m ((c : Thread nD τ).loc main_arg5)) := KFold.w1_at_entry3 m ρ c
  have h := R3.final (V10 m ρ) c
  rw [e69, e1, e5] at h
  exact (KFold.dcode_after3 m ρ c).trans (h.trans (Cert.ReferenceIdeal.RefValue.dcode_eq _ _ _ _ _ _ _ _ _).symm)

end Cert.KernelIdeal.KValue

end
-- ==== Proof.lean ====
/-
  A decoder (a code sent through one rectified hidden layer to 8192 points in space) under an energy that compares, edge
  by edge of a neighbour graph, the decoded points with given ones; the results are the mean energy of each of the 32
  codes and its gradient in the code.

  The kernel's program computes the decoder by four tiled matrix kernels — the hidden layer, the output layer in twelve
  column tiles, and backwards the output layer's transpose accumulated over the same twelve tiles and the hidden layer's
  transpose behind the rectifier's pass mask — and everything between them by the very operations the reference applies.
  On the extended reals a change of float format is the identity, so each kernel is its matrix product: the tiles of the
  output layer are restrictions of one product, the twelve partial sums of the backward product are consecutive stretches
  of one sum (addition of extended reals is commutative and associative, nothing need be finite), and multiplying a
  cotangent by the mask of the rectified activation is choosing between it and zero by the sign of the pre-activation
  (a rectified value is positive exactly when the value is). The stretch between the decoder and its backward pass is
  carried as one function of `flat` on both sides and never opened.

  The three frames: the two kernel programs' by their runs over the four regions, the reference's by its run with the
  results dropped. The idealization rewrote nothing, so there is nothing to preserve.
-/
import proofs.«141027_j46059229282940_1_alg».proof.Defs
import proofs.«141027_j46059229282940_1_alg».proof.Proof.Gen.Kernel
import proofs.«141027_j46059229282940_1_alg».proof.Proof.Gen.Kernel.Skeleton
import proofs.«141027_j46059229282940_1_alg».proof.Proof.Gen.Kernel.Launch
import proofs.«141027_j46059229282940_1_alg».proof.Proof.Gen.Kernel.Points
import proofs.«141027_j46059229282940_1_alg».proof.Proof.Gen.Kernel.Frame
import proofs.«141027_j46059229282940_1_alg».proof.Proof.Gen.KernelIdeal
import proofs.«141027_j46059229282940_1_alg».proof.Proof.Gen.KernelIdeal.Skeleton
import proofs.«141027_j46059229282940_1_alg».proof.Proof.Gen.KernelIdeal.Launch
import proofs.«141027_j46059229282940_1_alg».proof.Proof.Gen.KernelIdeal.Points
import proofs.«141027_j46059229282940_1_alg».proof.Proof.Gen.KernelIdeal.Frame
import proofs.«141027_j46059229282940_1_alg».proof.Proof.Gen.ReferenceIdeal
import proofs.«141027_j46059229282940_1_alg».proof.Proof.Gen.Pre_finite_inputs
import proofs.«141027_j46059229282940_1_alg».proof.Proof.RefImports
import proofs.«141027_j46059229282940_1_alg».proof.Proof.KRun
import proofs.«141027_j46059229282940_1_alg».proof.Proof.KValue
import Idealize.ShloMosaic.Adequacy
import Idealize.ShloMosaic.Init

noncomputable section

namespace Cert.Proof

open Idealize.ShloMosaic Idealize.SL.Sem

/-- Every execution of the kernel's program at the word level terminates, nothing faulting, the arguments unchanged. -/
theorem frame_kernel [Cert.Kernel.Facts] [Cert.Pre_finite_inputs.Facts] : Cert.frame_Kernel :=
  fun m ρ _ => Cert.Kernel.Gen.frame m ρ

/-- The same for the kernel's program on the extended reals. -/
theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- From memories that agree on the nine arguments both programs end with the reference's mean energy and code
    gradient: the kernel's run leaves them by the walk through its four regions, the reference's by its own run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.mean_eq m ρ c), (h c).2.1.trans (Cert.KernelIdeal.KValue.dcode_eq m ρ c), (h c).2.2⟩)
      (Cert.KernelIdeal.KRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v54_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]
    · rw [Cert.ReferenceIdeal.Read.val_main_v80_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
